-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S4096x8 : Shape := ⟨2, ![4096, 8]⟩
abbrev S64x64 : Shape := ⟨2, ![64, 64]⟩
abbrev S64 : Shape := ⟨1, ![64]⟩
abbrev S2112x4224 : Shape := ⟨2, ![2112, 4224]⟩
abbrev S2112 : Shape := ⟨1, ![2112]⟩
abbrev S64x2112 : Shape := ⟨2, ![64, 2112]⟩
abbrev S192x64 : Shape := ⟨2, ![192, 64]⟩
abbrev S192 : Shape := ⟨1, ![192]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2112x4224 : S_.BroadcastsInDim S2112x4224 (![] : Fin 0 → Fin S2112x4224.rank)
  reducesTo_S2112x4224_S_d0_1 : S2112x4224.ReducesTo [0, 1] S_
  bcast_S_S2112 : S_.BroadcastsInDim S2112 (![] : Fin 0 → Fin S2112.rank)
  reducesTo_S2112_S_d0 : S2112.ReducesTo [0] S_
  bcast_S_S64x2112 : S_.BroadcastsInDim S64x2112 (![] : Fin 0 → Fin S64x2112.rank)
  reducesTo_S64x2112_S_d0_1 : S64x2112.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg15 : FVec F S4096x64 .f32) (main_arg16 : FVec F S4096 .f32) (main_v63 : IVec S_ 1) (main_v67 : IVec S_ 1) : IVec S_ 1 :=
  let main_v68 : IVec S_ 1 := andi main_v63 main_v67
  let main_v69 : FVec F S4096x64 .f32 := Host.absf main_arg15
  let main_cst_26 : FVec F S_ .f32 := constant S_ .f32 0x7F800000#32
  let main_v70 : FVec F S4096x64 .f32 := broadcastInDim S4096x64 ![] bcast_S_S4096x64 main_cst_26
  let main_v71 : IVec S4096x64 1 := cmpf .olt main_v69 main_v70
  let main_c_27 : IVec S_ 1 := constantI S_ 1 1#1
  let main_v72 : IVec S_ 1 := (fun x v => Host.reduce IntOp.andi x v reducesTo_S4096x64_S_d0_1 h_S_) main_v71 main_c_27
  let main_v73 : IVec S_ 1 := andi main_v68 main_v72
  let main_v74 : FVec F S4096 .f32 := Host.absf main_arg16
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  main_v78

def fn_part3 {F : FTy → Type} [FloatOps F] (main_arg12 : FVec F S192 .f32) (main_arg13 : FVec F S64x64 .f32) (main_arg14 : FVec F S64 .f32) (main_arg15 : FVec F S4096x64 .f32) (main_arg16 : FVec F S4096 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S192 .f32 := Host.absf main_arg12
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S64 .f32) (main_arg9 : FVec F S192x64 .f32) (main_arg10 : FVec F S192 .f32) (main_arg11 : FVec F S192x64 .f32) (main_arg12 : FVec F S192 .f32) (main_arg13 : FVec F S64x64 .f32) (main_arg14 : FVec F S64 .f32) (main_arg15 : FVec F S4096x64 .f32) (main_arg16 : FVec F S4096 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192 .f32 := Host.absf main_arg10
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192x64 .f32 := Host.absf main_arg11
  let main_cst_18 : FVec F S_ .f32 := constant S_ .f32 0x7F800000#32
  let main_v50 : FVec F S192x64 .f32 := broadcastInDim S192x64 ![] bcast_S_S192x64 main_cst_18
  fn_part3 (F := F) main_arg12 main_arg13 main_arg14 main_arg15 main_arg16 main_v48 main_v49 main_v50

def fn_part1 {F : FTy → Type} [FloatOps F] (main_arg5 : FVec F S2112x4224 .f32) (main_arg6 : FVec F S2112 .f32) (main_arg7 : FVec F S64x2112 .f32) (main_arg8 : FVec F S64 .f32) (main_arg9 : FVec F S192x64 .f32) (main_arg10 : FVec F S192 .f32) (main_arg11 : FVec F S192x64 .f32) (main_arg12 : FVec F S192 .f32) (main_arg13 : FVec F S64x64 .f32) (main_arg14 : FVec F S64 .f32) (main_arg15 : FVec F S4096x64 .f32) (main_arg16 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2112x4224 .f32 := Host.absf main_arg5
  let main_cst_6 : FVec F S_ .f32 := constant S_ .f32 0x7F800000#32
  let main_v20 : FVec F S2112x4224 .f32 := broadcastInDim S2112x4224 ![] bcast_S_S2112x4224 main_cst_6
  let main_v21 : IVec S2112x4224 1 := cmpf .olt main_v19 main_v20
  let main_c_7 : IVec S_ 1 := constantI S_ 1 1#1
  let main_v22 : IVec S_ 1 := (fun x v => Host.reduce IntOp.andi x v reducesTo_S2112x4224_S_d0_1 h_S_) main_v21 main_c_7
  let main_v23 : IVec S_ 1 := andi main_v18 main_v22
  let main_v24 : FVec F S2112 .f32 := Host.absf main_arg6
  let main_cst_8 : FVec F S_ .f32 := constant S_ .f32 0x7F800000#32
  let main_v25 : FVec F S2112 .f32 := broadcastInDim S2112 ![] bcast_S_S2112 main_cst_8
  let main_v26 : IVec S2112 1 := cmpf .olt main_v24 main_v25
  let main_c_9 : IVec S_ 1 := constantI S_ 1 1#1
  let main_v27 : IVec S_ 1 := (fun x v => Host.reduce IntOp.andi x v reducesTo_S2112_S_d0 h_S_) main_v26 main_c_9
  let main_v28 : IVec S_ 1 := andi main_v23 main_v27
  let main_v29 : FVec F S64x2112 .f32 := Host.absf main_arg7
  let main_cst_10 : FVec F S_ .f32 := constant S_ .f32 0x7F800000#32
  let main_v30 : FVec F S64x2112 .f32 := broadcastInDim S64x2112 ![] bcast_S_S64x2112 main_cst_10
  let main_v31 : IVec S64x2112 1 := cmpf .olt main_v29 main_v30
  let main_c_11 : IVec S_ 1 := constantI S_ 1 1#1
  let main_v32 : IVec S_ 1 := (fun x v => Host.reduce IntOp.andi x v reducesTo_S64x2112_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S4096x64 .f32) (main_arg1 : FVec F S4096x4096 .f32) (main_arg2 : IVec S4096x8 32) (main_arg3 : FVec F S64x64 .f32) (main_arg4 : FVec F S64 .f32) (main_arg5 : FVec F S2112x4224 .f32) (main_arg6 : FVec F S2112 .f32) (main_arg7 : FVec F S64x2112 .f32) (main_arg8 : FVec F S64 .f32) (main_arg9 : FVec F S192x64 .f32) (main_arg10 : FVec F S192 .f32) (main_arg11 : FVec F S192x64 .f32) (main_arg12 : FVec F S192 .f32) (main_arg13 : FVec F S64x64 .f32) (main_arg14 : FVec F S64 .f32) (main_arg15 : FVec F S4096x64 .f32) (main_arg16 : FVec F S4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S4096x64 : Shape := ⟨2, ![4096, 64]⟩
abbrev S4096x4096 : Shape := ⟨2, ![4096, 4096]⟩
abbrev S4096x8 : Shape := ⟨2, ![4096, 8]⟩
abbrev S64x64 : Shape := ⟨2, ![64, 64]⟩
abbrev S64 : Shape := ⟨1, ![64]⟩
abbrev S2112x4224 : Shape := ⟨2, ![2112, 4224]⟩
abbrev S2112 : Shape := ⟨1, ![2112]⟩
abbrev S64x2112 : Shape := ⟨2, ![64, 2112]⟩
abbrev S192x64 : Shape := ⟨2, ![192, 64]⟩
abbrev S192 : Shape := ⟨1, ![192]⟩
abbrev S4096 : Shape := ⟨1, ![4096]⟩
abbrev S_ : Shape := ⟨0, ![]⟩
abbrev S4096x8x1 : Shape := ⟨3, ![4096, 8, 1]⟩
abbrev S4096x8x64 : Shape := ⟨3, ![4096, 8, 64]⟩
abbrev S1x64 : Shape := ⟨2, ![1, 64]⟩
abbrev S2112x64 : Shape := ⟨2, ![2112, 64]⟩
abbrev S2112x4096 : Shape := ⟨2, ![2112, 4096]⟩
abbrev S4096x2112 : Shape := ⟨2, ![4096, 2112]⟩
abbrev S64x192 : Shape := ⟨2, ![64, 192]⟩
abbrev S64x4096 : Shape := ⟨2, ![64, 4096]⟩
abbrev S1x2112 : Shape := ⟨2, ![1, 2112]⟩
abbrev S1x192 : Shape := ⟨2, ![1, 192]⟩
abbrev S1x4096 : Shape := ⟨2, ![1, 4096]⟩
abbrev S256x64 : Shape := ⟨2, ![256, 64]⟩
abbrev S256x1024 : Shape := ⟨2, ![256, 1024]⟩
abbrev S1024x2112 : Shape := ⟨2, ![1024, 2112]⟩
abbrev S256x4096 : Shape := ⟨2, ![256, 4096]⟩
abbrev S256x2112 : Shape := ⟨2, ![256, 2112]⟩
abbrev S256x192 : Shape := ⟨2, ![256, 192]⟩

abbrev nBuf : Space → Nat
  | .hbm => 62
  | .vmem => 24
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x8, .i32⟩
  | .hbm, ⟨3, _⟩ => ⟨S64x64, .f32⟩
  | .hbm, ⟨4, _⟩ => ⟨S64, .f32⟩
  | .hbm, ⟨5, _⟩ => ⟨S2112x4224, .f32⟩
  | .hbm, ⟨6, _⟩ => ⟨S2112, .f32⟩
  | .hbm, ⟨7, _⟩ => ⟨S64x2112, .f32⟩
  | .hbm, ⟨8, _⟩ => ⟨S64, .f32⟩
  | .hbm, ⟨9, _⟩ => ⟨S192x64, .f32⟩
  | .hbm, ⟨10, _⟩ => ⟨S192, .f32⟩
  | .hbm, ⟨11, _⟩ => ⟨S192x64, .f32⟩
  | .hbm, ⟨12, _⟩ => ⟨S192, .f32⟩
  | .hbm, ⟨13, _⟩ => ⟨S64x64, .f32⟩
  | .hbm, ⟨14, _⟩ => ⟨S64, .f32⟩
  | .hbm, ⟨15, _⟩ => ⟨S4096x64, .f32⟩
  | .hbm, ⟨16, _⟩ => ⟨S4096, .f32⟩
  | .hbm, ⟨17, _⟩ => ⟨S_, .i32⟩
  | .hbm, ⟨18, _⟩ => ⟨S4096x8, .i32⟩
  | .hbm, ⟨19, _⟩ => ⟨S4096x8, .i1⟩
  | .hbm, ⟨20, _⟩ => ⟨S_, .i32⟩
  | .hbm, ⟨21, _⟩ => ⟨S4096x8, .i32⟩
  | .hbm, ⟨22, _⟩ => ⟨S4096x8, .i32⟩
  | .hbm, ⟨23, _⟩ => ⟨S4096x8, .i32⟩
  | .hbm, ⟨24, _⟩ => ⟨S4096x8x1, .i32⟩
  | .hbm, ⟨25, _⟩ => ⟨S4096x8x64, .f32⟩
  | .hbm, ⟨26, _⟩ => ⟨S_, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S64x64, .f32⟩
  | .hbm, ⟨32, _⟩ => ⟨S4096x64, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S2112x64, .f32⟩
  | .hbm, ⟨37, _⟩ => ⟨S64x2112, .f32⟩
  | .hbm, ⟨38, _⟩ => ⟨S64x2112, .bf16⟩
  | .hbm, ⟨39, _⟩ => ⟨S2112x4096, .f32⟩
  | .hbm, ⟨40, _⟩ => ⟨S4096x2112, .f32⟩
  | .hbm, ⟨41, _⟩ => ⟨S4096x2112, .bf16⟩
  | .hbm, ⟨42, _⟩ => ⟨S2112x64, .f32⟩
  | .hbm, ⟨43, _⟩ => ⟨S64x2112, .f32⟩
  | .hbm, ⟨44, _⟩ => ⟨S64x2112, .bf16⟩
  | .hbm, ⟨45, _⟩ => ⟨S2112x64, .f32⟩
  | .hbm, ⟨46, _⟩ => ⟨S2112x64, .bf16⟩
  | .hbm, ⟨47, _⟩ => ⟨S64x192, .f32⟩
  | .hbm, ⟨48, _⟩ => ⟨S64x192, .bf16⟩
  | .hbm, ⟨49, _⟩ => ⟨S64x192, .f32⟩
  | .hbm, ⟨50, _⟩ => ⟨S64x192, .bf16⟩
  | .hbm, ⟨51, _⟩ => ⟨S64x64, .f32⟩
  | .hbm, ⟨52, _⟩ => ⟨S64x64, .bf16⟩
  | .hbm, ⟨53, _⟩ => ⟨S64x4096, .f32⟩
  | .hbm, ⟨54, _⟩ => ⟨S64x4096, .bf16⟩
  | .hbm, ⟨55, _⟩ => ⟨S1x2112, .f32⟩
  | .hbm, ⟨56, _⟩ => ⟨S1x64, .f32⟩
  | .hbm, ⟨57, _⟩ => ⟨S1x192, .f32⟩
  | .hbm, ⟨58, _⟩ => ⟨S1x192, .f32⟩
  | .hbm, ⟨59, _⟩ => ⟨S1x64, .f32⟩
  | .hbm, ⟨60, _⟩ => ⟨S1x4096, .f32⟩
  | .hbm, ⟨61, _⟩ => ⟨S4096x4096, .f32⟩
  | .local _ .vmem, ⟨0, _⟩ => ⟨S256x64, .f32⟩
  | .local _ .vmem, ⟨1, _⟩ => ⟨S256x64, .f32⟩
  | .local _ .vmem, ⟨2, _⟩ => ⟨S256x1024, .f32⟩
  | .local _ .vmem, ⟨3, _⟩ => ⟨S256x1024, .f32⟩
  | .local _ .vmem, ⟨4, _⟩ => ⟨S256x64, .f32⟩
  | .local _ .vmem, ⟨5, _⟩ => ⟨S256x64, .f32⟩
  | .local _ .vmem, ⟨6, _⟩ => ⟨S64x2112, .bf16⟩
  | .local _ .vmem, ⟨7, _⟩ => ⟨S1024x2112, .bf16⟩
  | .local _ .vmem, ⟨8, _⟩ => ⟨S1024x2112, .bf16⟩
  | .local _ .vmem, ⟨9, _⟩ => ⟨S64x2112, .bf16⟩
  | .local _ .vmem, ⟨10, _⟩ => ⟨S1x2112, .f32⟩
  | .local _ .vmem, ⟨11, _⟩ => ⟨S2112x64, .bf16⟩
  | .local _ .vmem, ⟨12, _⟩ => ⟨S1x64, .f32⟩
  | .local _ .vmem, ⟨13, _⟩ => ⟨S64x192, .bf16⟩
  | .local _ .vmem, ⟨14, _⟩ => ⟨S1x192, .f32⟩
  | .local _ .vmem, ⟨15, _⟩ => ⟨S64x192, .bf16⟩
  | .local _ .vmem, ⟨16, _⟩ => ⟨S1x192, .f32⟩
  | .local _ .vmem, ⟨17, _⟩ => ⟨S64x64, .bf16⟩
  | .local _ .vmem, ⟨18, _⟩ => ⟨S1x64, .f32⟩
  | .local _ .vmem, ⟨19, _⟩ => ⟨S64x4096, .bf16⟩
  | .local _ .vmem, ⟨20, _⟩ => ⟨S1x4096, .f32⟩
  | .local _ .vmem, ⟨21, _⟩ => ⟨S256x4096, .f32⟩
  | .local _ .vmem, ⟨22, _⟩ => ⟨S256x4096, .f32⟩
  | .local _ .vmem, ⟨23, _⟩ => ⟨S256x2112, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x2112 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2112 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S64x2112 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2112 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2112x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S256x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  reducesTo_S4096x8x64_S4096x64_d1 : S4096x8x64.ReducesTo [1] S4096x64
  h_S_ : 0 < S_.numel
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S2112x4224_S2112x64_0_0 : S2112x4224.Slices ![0, 0] S2112x64
  transposes_S2112x64_S64x2112_1_0 : S2112x64.Transposes [1, 0] S64x2112
  bitsLt_bf16_f32 : FTy.bits .bf16 < FTy.bits .f32
  slices_S2112x4224_S2112x4096_0_64 : S2112x4224.Slices ![0, 64] S2112x4096
  transposes_S2112x4096_S4096x2112_1_0 : S2112x4096.Transposes [1, 0] S4096x2112
  slices_S2112x4224_S2112x64_0_4160 : S2112x4224.Slices ![0, 4160] S2112x64
  transposes_S64x2112_S2112x64_1_0 : S64x2112.Transposes [1, 0] S2112x64
  transposes_S192x64_S64x192_1_0 : S192x64.Transposes [1, 0] S64x192
  transposes_S4096x64_S64x4096_1_0 : S4096x64.Transposes [1, 0] S64x4096
  shapeCasts_S2112_S1x2112 : S2112.ShapeCasts S1x2112
  shapeCasts_S64_S1x64 : S64.ShapeCasts S1x64
  shapeCasts_S192_S1x192 : S192.ShapeCasts S1x192
  shapeCasts_S4096_S1x4096 : S4096.ShapeCasts S1x4096
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x2112_S64x2112_0_0 : ∀ a, (![0, 0] : Fin 2 → Nat) a + S64x2112.size a ≤ S64x2112.size a
  h_S64x2112 : 0 < S64x2112.numel
  shapeCasts_S64x2112_S64x2112 : S64x2112.ShapeCasts S64x2112
  inb_S256x2112_S256x2112_0_0 : ∀ a, (![0, 0] : Fin 2 → Nat) a + S256x2112.size a ≤ S256x2112.size a
  h_S256x2112 : 0 < S256x2112.numel
  shapeCasts_S256x2112_S256x2112 : S256x2112.ShapeCasts S256x2112
  inb_S256x1024_S256x1024_0_0 : ∀ a, (![0, 0] : Fin 2 → Nat) a + S256x1024.size a ≤ S256x1024.size a
  h_S256x1024 : 0 < S256x1024.numel
  inb_S1024x2112_S1024x2112_0_0 : ∀ a, (![0, 0] : Fin 2 → Nat) a + S1024x2112.size a ≤ S1024x2112.size a
  h_S1024x2112 : 0 < S1024x2112.numel
  shapeCasts_S1024x2112_S1024x2112 : S1024x2112.ShapeCasts S1024x2112
  inb_S1x2112_S1x2112_0_0 : ∀ a, (![0, 0] : Fin 2 → Nat) a + S1x2112.size a ≤ S1x2112.size a
  h_S1x2112 : 0 < S1x2112.numel
  shapeCasts_S1x2112_S1x2112 : S1x2112.ShapeCasts S1x2112
  broadcasts_S1x2112_S256x2112 : S1x2112.Broadcasts S256x2112
  inb_S2112x64_S2112x64_0_0 : ∀ a, (![0, 0] : Fin 2 → Nat) a + S2112x64.size a ≤ S2112x64.size a
  h_S2112x64 : 0 < S2112x64.numel
  shapeCasts_S2112x64_S2112x64 : S2112x64.ShapeCasts S2112x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S256x192 : S1x192.Broadcasts S256x192
  slices_S256x192_o0_0_S256x64 : S256x192.Slices ![0, 0] S256x64
  slices_S256x192_o0_64_S256x64 : S256x192.Slices ![0, 64] S256x64
  slices_S256x192_o0_128_S256x64 : S256x192.Slices ![0, 128] S256x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  gather_S4096x64_S4096x8x1_S4096x8x64_2_0_n_n_0_2_164_wf : GatherDims.WF S4096x64 S4096x8x1 S4096x8x64 [2] [0] [] [0] [] 2 ![1, 64]
  dot_S4096x64_S64x64_S4096x64_1_0_0_1_n_n_wf : DotDims.WF S4096x64 S64x64 S4096x64 [1] [0] [0] [1] [] []
  dot_S256x64_S64x2112_S256x2112_1_0_0_1_n_n_wf : DotDims.WF S256x64 S64x2112 S256x2112 [1] [0] [0] [1] [] []
  dot_S256x1024_S1024x2112_S256x2112_1_0_0_1_n_n_wf : DotDims.WF S256x1024 S1024x2112 S256x2112 [1] [0] [0] [1] [] []
  dot_S256x2112_S2112x64_S256x64_1_0_0_1_n_n_wf : DotDims.WF S256x2112 S2112x64 S256x64 [1] [0] [0] [1] [] []
  dot_S256x64_S64x192_S256x192_1_0_0_1_n_n_wf : DotDims.WF S256x64 S64x192 S256x192 [1] [0] [0] [1] [] []
  dot_S256x64_S64x64_S256x64_1_0_0_1_n_n_wf : DotDims.WF S256x64 S64x64 S256x64 [1] [0] [0] [1] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S4096x64.size a
  hwx0_0 : ∀ i : grid0.Coords, EltTy.bits .f32 = 32 ∨ (Rect.block (s := S4096x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .f32 = 32 ∨ (Rect.block (s := S4096x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2112.size a ≤ S64x2112.size a
  hwx0_3 : ∀ i : grid0.Coords, EltTy.bits .bf16 = 32 ∨ (Rect.block (s := S64x2112) S64x2112.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2112.size a ≤ S4096x2112.size a
  hwx0_4 : ∀ i : grid0.Coords, EltTy.bits .bf16 = 32 ∨ (Rect.block (s := S4096x2112) S1024x2112.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2112.size a ≤ S64x2112.size a
  hwx0_5 : ∀ i : grid0.Coords, EltTy.bits .bf16 = 32 ∨ (Rect.block (s := S64x2112) S64x2112.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2112.size a ≤ S1x2112.size a
  hwx0_6 : ∀ i : grid0.Coords, EltTy.bits .f32 = 32 ∨ (Rect.block (s := S1x2112) S1x2112.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2112x64.size a ≤ S2112x64.size a
  hwx0_7 : ∀ i : grid0.Coords, EltTy.bits .bf16 = 32 ∨ (Rect.block (s := S2112x64) S2112x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x192.size a ≤ S64x192.size a
  hwx0_9 : ∀ i : grid0.Coords, EltTy.bits .bf16 = 32 ∨ (Rect.block (s := S64x192) S64x192.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x192.size a ≤ S1x192.size a
  hwx0_10 : ∀ i : grid0.Coords, EltTy.bits .f32 = 32 ∨ (Rect.block (s := S1x192) S1x192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x192.size a ≤ S64x192.size a
  hwx0_11 : ∀ i : grid0.Coords, EltTy.bits .bf16 = 32 ∨ (Rect.block (s := S64x192) S64x192.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x192.size a ≤ S1x192.size a
  hwx0_12 : ∀ i : grid0.Coords, EltTy.bits .f32 = 32 ∨ (Rect.block (s := S1x192) S1x192.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .bf16 = 32 ∨ (Rect.block (s := S64x64) S64x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x4096.size a ≤ S64x4096.size a
  hwx0_15 : ∀ i : grid0.Coords, EltTy.bits .bf16 = 32 ∨ (Rect.block (s := S64x4096) S64x4096.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x4096.size a ≤ S1x4096.size a
  hwx0_16 : ∀ i : grid0.Coords, EltTy.bits .f32 = 32 ∨ (Rect.block (s := S1x4096) S1x4096.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x4096.size a ≤ S4096x4096.size a
  hwx0_17 : ∀ i : grid0.Coords, EltTy.bits .f32 = 32 ∨ (Rect.block (s := S4096x4096) S256x4096.size (cc0_transform_17 i) (hinb0_17 i)).WholeWords (EltTy.packing .f32)

variable [Facts₀]

def gather_S4096x64_S4096x8x1_S4096x8x64_2_0_n_n_0_2_164 : GatherDims S4096x64 S4096x8x1 S4096x8x64 where
  offsetDims := [2]
  collapsedSliceDims := [0]
  operandBatchingDims := []
  startIndicesBatchingDims := []
  startIndexMap := [0]
  indexVectorDim := 2
  sliceSizes := ![1, 64]
  wf := gather_S4096x64_S4096x8x1_S4096x8x64_2_0_n_n_0_2_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S256x64_S64x2112_S256x2112_1_0_0_1_n_n : DotDims S256x64 S64x2112 S256x2112 where
  lhsContracting := [1]
  rhsContracting := [0]
  lhsNonContracting := [0]
  rhsNonContracting := [1]
  lhsBatch := []
  rhsBatch := []
  wf := dot_S256x64_S64x2112_S256x2112_1_0_0_1_n_n_wf
def dot_S256x1024_S1024x2112_S256x2112_1_0_0_1_n_n : DotDims S256x1024 S1024x2112 S256x2112 where
  lhsContracting := [1]
  rhsContracting := [0]
  lhsNonContracting := [0]
  rhsNonContracting := [1]
  lhsBatch := []
  rhsBatch := []
  wf := dot_S256x1024_S1024x2112_S256x2112_1_0_0_1_n_n_wf
def dot_S256x2112_S2112x64_S256x64_1_0_0_1_n_n : DotDims S256x2112 S2112x64 S256x64 where
  lhsContracting := [1]
  rhsContracting := [0]
  lhsNonContracting := [0]
  rhsNonContracting := [1]
  lhsBatch := []
  rhsBatch := []
  wf := dot_S256x2112_S2112x64_S256x64_1_0_0_1_n_n_wf
def dot_S256x64_S64x192_S256x192_1_0_0_1_n_n : DotDims S256x64 S64x192 S256x192 where
  lhsContracting := [1]
  rhsContracting := [0]
  lhsNonContracting := [0]
  rhsNonContracting := [1]
  lhsBatch := []
  rhsBatch := []
  wf := dot_S256x64_S64x192_S256x192_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x2112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x2112.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x2112.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x2112.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S2112x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S64x192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S64x192.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S1x192.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v31) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S64x4096.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v39) S1x4096.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v40) S256x4096.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond2 i == 1#1) | ⟨_ + 18, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S4096x8 : Shape := ⟨2, ![4096, 8]⟩
abbrev S64x64 : Shape := ⟨2, ![64, 64]⟩
abbrev S64 : Shape := ⟨1, ![64]⟩
abbrev S2112x4224 : Shape := ⟨2, ![2112, 4224]⟩
abbrev S2112 : Shape := ⟨1, ![2112]⟩
abbrev S64x2112 : Shape := ⟨2, ![64, 2112]⟩
abbrev S192x64 : Shape := ⟨2, ![192, 64]⟩
abbrev S192 : Shape := ⟨1, ![192]⟩
abbrev S4096 : Shape := ⟨1, ![4096]⟩
abbrev S_ : Shape := ⟨0, ![]⟩
abbrev S4096x8x1 : Shape := ⟨3, ![4096, 8, 1]⟩
abbrev S4096x8x64 : Shape := ⟨3, ![4096, 8, 64]⟩
abbrev S1x64 : Shape := ⟨2, ![1, 64]⟩
abbrev S4096x4224 : Shape := ⟨2, ![4096, 4224]⟩
abbrev S4224x2112 : Shape := ⟨2, ![4224, 2112]⟩
abbrev S4096x2112 : Shape := ⟨2, ![4096, 2112]⟩
abbrev S1x2112 : Shape := ⟨2, ![1, 2112]⟩
abbrev S2112x64 : Shape := ⟨2, ![2112, 64]⟩
abbrev S64x192 : Shape := ⟨2, ![64, 192]⟩
abbrev S4096x192 : Shape := ⟨2, ![4096, 192]⟩
abbrev S1x192 : Shape := ⟨2, ![1, 192]⟩
abbrev S64x4096 : Shape := ⟨2, ![64, 4096]⟩
abbrev S1x4096 : Shape := ⟨2, ![1, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x8, .i32⟩
  | .hbm, ⟨3, _⟩ => ⟨S64x64, .f32⟩
  | .hbm, ⟨4, _⟩ => ⟨S64, .f32⟩
  | .hbm, ⟨5, _⟩ => ⟨S2112x4224, .f32⟩
  | .hbm, ⟨6, _⟩ => ⟨S2112, .f32⟩
  | .hbm, ⟨7, _⟩ => ⟨S64x2112, .f32⟩
  | .hbm, ⟨8, _⟩ => ⟨S64, .f32⟩
  | .hbm, ⟨9, _⟩ => ⟨S192x64, .f32⟩
  | .hbm, ⟨10, _⟩ => ⟨S192, .f32⟩
  | .hbm, ⟨11, _⟩ => ⟨S192x64, .f32⟩
  | .hbm, ⟨12, _⟩ => ⟨S192, .f32⟩
  | .hbm, ⟨13, _⟩ => ⟨S64x64, .f32⟩
  | .hbm, ⟨14, _⟩ => ⟨S64, .f32⟩
  | .hbm, ⟨15, _⟩ => ⟨S4096x64, .f32⟩
  | .hbm, ⟨16, _⟩ => ⟨S4096, .f32⟩
  | .hbm, ⟨17, _⟩ => ⟨S_, .i32⟩
  | .hbm, ⟨18, _⟩ => ⟨S4096x8, .i32⟩
  | .hbm, ⟨19, _⟩ => ⟨S4096x8, .i1⟩
  | .hbm, ⟨20, _⟩ => ⟨S_, .i32⟩
  | .hbm, ⟨21, _⟩ => ⟨S4096x8, .i32⟩
  | .hbm, ⟨22, _⟩ => ⟨S4096x8, .i32⟩
  | .hbm, ⟨23, _⟩ => ⟨S4096x8, .i32⟩
  | .hbm, ⟨24, _⟩ => ⟨S4096x8x1, .i32⟩
  | .hbm, ⟨25, _⟩ => ⟨S4096x8x64, .f32⟩
  | .hbm, ⟨26, _⟩ => ⟨S_, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S64x64, .f32⟩
  | .hbm, ⟨32, _⟩ => ⟨S4096x64, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S4096x4224, .f32⟩
  | .hbm, ⟨37, _⟩ => ⟨S4224x2112, .f32⟩
  | .hbm, ⟨38, _⟩ => ⟨S4096x2112, .f32⟩
  | .hbm, ⟨39, _⟩ => ⟨S1x2112, .f32⟩
  | .hbm, ⟨40, _⟩ => ⟨S4096x2112, .f32⟩
  | .hbm, ⟨41, _⟩ => ⟨S4096x2112, .f32⟩
  | .hbm, ⟨42, _⟩ => ⟨S_, .f32⟩
  | .hbm, ⟨43, _⟩ => ⟨S4096x2112, .f32⟩
  | .hbm, ⟨44, _⟩ => ⟨S4096x2112, .f32⟩
  | .hbm, ⟨45, _⟩ => ⟨S2112x64, .f32⟩
  | .hbm, ⟨46, _⟩ => ⟨S4096x64, .f32⟩
  | .hbm, ⟨47, _⟩ => ⟨S1x64, .f32⟩
  | .hbm, ⟨48, _⟩ => ⟨S4096x64, .f32⟩
  | .hbm, ⟨49, _⟩ => ⟨S4096x64, .f32⟩
  | .hbm, ⟨50, _⟩ => ⟨S64x192, .f32⟩
  | .hbm, ⟨51, _⟩ => ⟨S4096x192, .f32⟩
  | .hbm, ⟨52, _⟩ => ⟨S1x192, .f32⟩
  | .hbm, ⟨53, _⟩ => ⟨S4096x192, .f32⟩
  | .hbm, ⟨54, _⟩ => ⟨S4096x192, .f32⟩
  | .hbm, ⟨55, _⟩ => ⟨S64x192, .f32⟩
  | .hbm, ⟨56, _⟩ => ⟨S4096x192, .f32⟩
  | .hbm, ⟨57, _⟩ => ⟨S1x192, .f32⟩
  | .hbm, ⟨58, _⟩ => ⟨S4096x192, .f32⟩
  | .hbm, ⟨59, _⟩ => ⟨S4096x192, .f32⟩
  | .hbm, ⟨60, _⟩ => ⟨S4096x64, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S_, .f32⟩
  | .hbm, ⟨70, _⟩ => ⟨S4096x64, .f32⟩
  | .hbm, ⟨71, _⟩ => ⟨S4096x64, .f32⟩
  | .hbm, ⟨72, _⟩ => ⟨S_, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S_, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096x64, .f32⟩
  | .hbm, ⟨89, _⟩ => ⟨S4096x64, .f32⟩
  | .hbm, ⟨90, _⟩ => ⟨S4096x64, .f32⟩
  | .hbm, ⟨91, _⟩ => ⟨S4096x64, .f32⟩
  | .hbm, ⟨92, _⟩ => ⟨S4096x64, .f32⟩
  | .hbm, ⟨93, _⟩ => ⟨S64x64, .f32⟩
  | .hbm, ⟨94, _⟩ => ⟨S4096x64, .f32⟩
  | .hbm, ⟨95, _⟩ => ⟨S1x64, .f32⟩
  | .hbm, ⟨96, _⟩ => ⟨S4096x64, .f32⟩
  | .hbm, ⟨97, _⟩ => ⟨S4096x64, .f32⟩
  | .hbm, ⟨98, _⟩ => ⟨S_, .f32⟩
  | .hbm, ⟨99, _⟩ => ⟨S4096x64, .f32⟩
  | .hbm, ⟨100, _⟩ => ⟨S4096x64, .f32⟩
  | .hbm, ⟨101, _⟩ => ⟨S64x4096, .f32⟩
  | .hbm, ⟨102, _⟩ => ⟨S4096x4096, .f32⟩
  | .hbm, ⟨103, _⟩ => ⟨S1x4096, .f32⟩
  | .hbm, ⟨104, _⟩ => ⟨S4096x4096, .f32⟩
  | .hbm, ⟨105, _⟩ => ⟨S4096x4096, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call0_cst : Ref sig .tc := ⟨.hbm, 42, rfl⟩
abbrev main_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_2 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_6 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  reducesTo_S4096x8x64_S4096x64_d1 : S4096x8x64.ReducesTo [1] S4096x64
  h_S_ : 0 < S_.numel
  bcast_S_S4096x64 : S_.BroadcastsInDim S4096x64 (![] : Fin 0 → Fin S4096x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  concatenates_S4096x64_S4096x4096_S4096x64_S4096x4224_d1 : Shape.Concatenates [S4096x64, S4096x4096, S4096x64] S4096x4224 1
  transposes_S2112x4224_S4224x2112_1_0 : S2112x4224.Transposes [1, 0] S4224x2112
  bcast_S2112_S1x2112_1 : S2112.BroadcastsInDim S1x2112 (![1] : Fin 1 → Fin S1x2112.rank)
  bcast_S1x2112_S4096x2112_0_1 : S1x2112.BroadcastsInDim S4096x2112 (![0, 1] : Fin 2 → Fin S4096x2112.rank)
  bcast_S_S4096x2112 : S_.BroadcastsInDim S4096x2112 (![] : Fin 0 → Fin S4096x2112.rank)
  transposes_S64x2112_S2112x64_1_0 : S64x2112.Transposes [1, 0] S2112x64
  transposes_S192x64_S64x192_1_0 : S192x64.Transposes [1, 0] S64x192
  bcast_S192_S1x192_1 : S192.BroadcastsInDim S1x192 (![1] : Fin 1 → Fin S1x192.rank)
  bcast_S1x192_S4096x192_0_1 : S1x192.BroadcastsInDim S4096x192 (![0, 1] : Fin 2 → Fin S4096x192.rank)
  slices_S4096x192_S4096x64_0_0 : S4096x192.Slices ![0, 0] S4096x64
  slices_S4096x192_S4096x64_0_64 : S4096x192.Slices ![0, 64] S4096x64
  slices_S4096x192_S4096x64_0_128 : S4096x192.Slices ![0, 128] S4096x64
  transposes_S4096x64_S64x4096_1_0 : S4096x64.Transposes [1, 0] S64x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096x64_S4096x8x1_S4096x8x64_2_0_n_n_0_2_164_wf : GatherDims.WF S4096x64 S4096x8x1 S4096x8x64 [2] [0] [] [0] [] 2 ![1, 64]
  dot_S4096x64_S64x64_S4096x64_1_0_0_1_n_n_wf : DotDims.WF S4096x64 S64x64 S4096x64 [1] [0] [0] [1] [] []
  dot_S4096x4224_S4224x2112_S4096x2112_1_0_0_1_n_n_wf : DotDims.WF S4096x4224 S4224x2112 S4096x2112 [1] [0] [0] [1] [] []
  dot_S4096x2112_S2112x64_S4096x64_1_0_0_1_n_n_wf : DotDims.WF S4096x2112 S2112x64 S4096x64 [1] [0] [0] [1] [] []
  dot_S4096x64_S64x192_S4096x192_1_0_0_1_n_n_wf : DotDims.WF S4096x64 S64x192 S4096x192 [1] [0] [0] [1] [] []
  dot_S4096x64_S64x4096_S4096x4096_1_0_0_1_n_n_wf : DotDims.WF S4096x64 S64x4096 S4096x4096 [1] [0] [0] [1] [] []

variable [Facts₀]

def gather_S4096x64_S4096x8x1_S4096x8x64_2_0_n_n_0_2_164 : GatherDims S4096x64 S4096x8x1 S4096x8x64 where
  offsetDims := [2]
  collapsedSliceDims := [0]
  operandBatchingDims := []
  startIndicesBatchingDims := []
  startIndexMap := [0]
  indexVectorDim := 2
  sliceSizes := ![1, 64]
  wf := gather_S4096x64_S4096x8x1_S4096x8x64_2_0_n_n_0_2_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4224_S4224x2112_S4096x2112_1_0_0_1_n_n : DotDims S4096x4224 S4224x2112 S4096x2112 where
  lhsContracting := [1]
  rhsContracting := [0]
  lhsNonContracting := [0]
  rhsNonContracting := [1]
  lhsBatch := []
  rhsBatch := []
  wf := dot_S4096x4224_S4224x2112_S4096x2112_1_0_0_1_n_n_wf
def dot_S4096x2112_S2112x64_S4096x64_1_0_0_1_n_n : DotDims S4096x2112 S2112x64 S4096x64 where
  lhsContracting := [1]
  rhsContracting := [0]
  lhsNonContracting := [0]
  rhsNonContracting := [1]
  lhsBatch := []
  rhsBatch := []
  wf := dot_S4096x2112_S2112x64_S4096x64_1_0_0_1_n_n_wf
def dot_S4096x64_S64x192_S4096x192_1_0_0_1_n_n : DotDims S4096x64 S64x192 S4096x192 where
  lhsContracting := [1]
  rhsContracting := [0]
  lhsNonContracting := [0]
  rhsNonContracting := [1]
  lhsBatch := []
  rhsBatch := []
  wf := dot_S4096x64_S64x192_S4096x192_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.KPieces.lean ====
/-
  What one run of the kernel body leaves in the accumulator and in the output block, as the body's stored
  values: at a row block's first point the accumulator is the update applied to the freshly stored start value;
  at the other points it is the update applied to what the point before left; at the last point the output block
  is the network's tail computed from the accumulator just stored.
-/
import proofs.«161436_j58033598104174_1_alg».proof.Proof.Gen.KernelIdeal.Frame
import Idealize.ShloMosaic.Lib.Pipeline.Value
import Idealize.ShloMosaic.Lib.Tactic

set_option maxRecDepth 16384

noncomputable section

namespace Cert.KPieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- First point of a row block: the start value is stored, read back, and updated. -/
theorem scratch_first (c : Dev nD) (i : grid0.Coords) (arg2 : Memref sig .tc .vmem S256x64 .f32) (harg2 : arg2.IsWhole) (arg3 : Memref sig .tc .vmem S256x1024 .f32) (harg3 : arg3.IsWhole) (arg4 : Memref sig .tc .vmem S256x64 .f32) (harg4 : arg4.IsWhole) (arg5 : Memref sig .tc .vmem S64x2112 .bf16) (harg5 : arg5.IsWhole) (arg6 : Memref sig .tc .vmem S1024x2112 .bf16) (harg6 : arg6.IsWhole) (arg7 : Memref sig .tc .vmem S64x2112 .bf16) (harg7 : arg7.IsWhole) (arg8 : Memref sig .tc .vmem S1x2112 .f32) (harg8 : arg8.IsWhole) (arg9 : Memref sig .tc .vmem S2112x64 .bf16) (harg9 : arg9.IsWhole) (arg10 : Memref sig .tc .vmem S1x64 .f32) (harg10 : arg10.IsWhole) (arg11 : Memref sig .tc .vmem S64x192 .bf16) (harg11 : arg11.IsWhole) (arg12 : Memref sig .tc .vmem S1x192 .f32) (harg12 : arg12.IsWhole) (arg13 : Memref sig .tc .vmem S64x192 .bf16) (harg13 : arg13.IsWhole) (arg14 : Memref sig .tc .vmem S1x192 .f32) (harg14 : arg14.IsWhole) (arg15 : Memref sig .tc .vmem S64x64 .bf16) (harg15 : arg15.IsWhole) (arg16 : Memref sig .tc .vmem S1x64 .f32) (harg16 : arg16.IsWhole) (arg17 : Memref sig .tc .vmem S64x4096 .bf16) (harg17 : arg17.IsWhole) (arg18 : Memref sig .tc .vmem S1x4096 .f32) (harg18 : arg18.IsWhole) (arg19 : Memref sig .tc .vmem S256x4096 .f32) (harg19 : arg19.IsWhole) (arg20 : Memref sig .tc .vmem S256x2112 .f32) (harg20 : arg20.IsWhole) (hc0 : cond0_0 i) (hc1 : ¬cond0_1 i) (x0 : Vec F S256x64 .f32) (x1 : Vec F S256x1024 .f32) (x2 : Vec F S256x64 .f32) (x3 : Vec F S64x2112 .bf16) (x4 : Vec F S1024x2112 .bf16) (x5 : Vec F S64x2112 .bf16) (x6 : Vec F S1x2112 .f32) (x7 : Vec F S2112x64 .bf16) (x8 : Vec F S1x64 .f32) (x9 : Vec F S64x192 .bf16) (x10 : Vec F S1x192 .f32) (x11 : Vec F S64x192 .bf16) (x12 : Vec F S1x192 .f32) (x13 : Vec F S64x64 .bf16) (x14 : Vec F S1x64 .f32) (x15 : Vec F S64x4096 .bf16) (x16 : Vec F S1x4096 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 = k0_pay2 x1 (k0_pay1 x0 x2 x3 x5) x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16)]
  unfold kernelRun0_A
  dsimp only
  sl_unfold_words
  rw [View.canon_cons_unit_zero (S := S256x2112) hz, View.readCov_unit_zero (S := S256x2112) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S256x64) hz, View.ld_unit_zero (S := S256x1024) hz, View.ld_unit_zero (S := S64x2112) hz, View.ld_unit_zero (S := S1024x2112) hz, View.ld_unit_zero (S := S1x2112) hz, View.ld_unit_zero (S := S2112x64) hz, View.ld_unit_zero (S := S1x64) hz, View.ld_unit_zero (S := S64x192) hz, View.ld_unit_zero (S := S1x192) hz, View.ld_unit_zero (S := S64x64) hz, View.ld_unit_zero (S := S64x4096) hz, View.ld_unit_zero (S := S1x4096) hz, View.ld_unit_zero (S := S256x4096) hz, View.ld_unit_zero (S := S256x2112) hz, View.readCov_unit_zero (S := S256x2112) _ hz]

/-- A middle point: what the point before left, updated. -/
theorem scratch_mid (c : Dev nD) (i : grid0.Coords) (arg2 : Memref sig .tc .vmem S256x64 .f32) (harg2 : arg2.IsWhole) (arg3 : Memref sig .tc .vmem S256x1024 .f32) (harg3 : arg3.IsWhole) (arg4 : Memref sig .tc .vmem S256x64 .f32) (harg4 : arg4.IsWhole) (arg5 : Memref sig .tc .vmem S64x2112 .bf16) (harg5 : arg5.IsWhole) (arg6 : Memref sig .tc .vmem S1024x2112 .bf16) (harg6 : arg6.IsWhole) (arg7 : Memref sig .tc .vmem S64x2112 .bf16) (harg7 : arg7.IsWhole) (arg8 : Memref sig .tc .vmem S1x2112 .f32) (harg8 : arg8.IsWhole) (arg9 : Memref sig .tc .vmem S2112x64 .bf16) (harg9 : arg9.IsWhole) (arg10 : Memref sig .tc .vmem S1x64 .f32) (harg10 : arg10.IsWhole) (arg11 : Memref sig .tc .vmem S64x192 .bf16) (harg11 : arg11.IsWhole) (arg12 : Memref sig .tc .vmem S1x192 .f32) (harg12 : arg12.IsWhole) (arg13 : Memref sig .tc .vmem S64x192 .bf16) (harg13 : arg13.IsWhole) (arg14 : Memref sig .tc .vmem S1x192 .f32) (harg14 : arg14.IsWhole) (arg15 : Memref sig .tc .vmem S64x64 .bf16) (harg15 : arg15.IsWhole) (arg16 : Memref sig .tc .vmem S1x64 .f32) (harg16 : arg16.IsWhole) (arg17 : Memref sig .tc .vmem S64x4096 .bf16) (harg17 : arg17.IsWhole) (arg18 : Memref sig .tc .vmem S1x4096 .f32) (harg18 : arg18.IsWhole) (arg19 : Memref sig .tc .vmem S256x4096 .f32) (harg19 : arg19.IsWhole) (arg20 : Memref sig .tc .vmem S256x2112 .f32) (harg20 : arg20.IsWhole) (hc0 : ¬cond0_0 i) (hc1 : ¬cond0_1 i) (x0 : Vec F S256x64 .f32) (x1 : Vec F S256x1024 .f32) (x2 : Vec F S256x64 .f32) (x3 : Vec F S64x2112 .bf16) (x4 : Vec F S1024x2112 .bf16) (x5 : Vec F S64x2112 .bf16) (x6 : Vec F S1x2112 .f32) (x7 : Vec F S2112x64 .bf16) (x8 : Vec F S1x64 .f32) (x9 : Vec F S64x192 .bf16) (x10 : Vec F S1x192 .f32) (x11 : Vec F S64x192 .bf16) (x12 : Vec F S1x192 .f32) (x13 : Vec F S64x64 .bf16) (x14 : Vec F S1x64 .f32) (x15 : Vec F S64x4096 .bf16) (x16 : Vec F S1x4096 .f32) (xs0 : Vec F S256x2112 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = k0_pay2 x1 xs0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S256x64) hz, View.ld_unit_zero (S := S256x1024) hz, View.ld_unit_zero (S := S64x2112) hz, View.ld_unit_zero (S := S1024x2112) hz, View.ld_unit_zero (S := S1x2112) hz, View.ld_unit_zero (S := S2112x64) hz, View.ld_unit_zero (S := S1x64) hz, View.ld_unit_zero (S := S64x192) hz, View.ld_unit_zero (S := S1x192) hz, View.ld_unit_zero (S := S64x64) hz, View.ld_unit_zero (S := S64x4096) hz, View.ld_unit_zero (S := S1x4096) hz, View.ld_unit_zero (S := S256x4096) hz, View.ld_unit_zero (S := S256x2112) hz, View.readCov_unit_zero (S := S256x2112) _ hz]

/-- The last point: what the point before left, updated. -/
theorem scratch_last (c : Dev nD) (i : grid0.Coords) (arg2 : Memref sig .tc .vmem S256x64 .f32) (harg2 : arg2.IsWhole) (arg3 : Memref sig .tc .vmem S256x1024 .f32) (harg3 : arg3.IsWhole) (arg4 : Memref sig .tc .vmem S256x64 .f32) (harg4 : arg4.IsWhole) (arg5 : Memref sig .tc .vmem S64x2112 .bf16) (harg5 : arg5.IsWhole) (arg6 : Memref sig .tc .vmem S1024x2112 .bf16) (harg6 : arg6.IsWhole) (arg7 : Memref sig .tc .vmem S64x2112 .bf16) (harg7 : arg7.IsWhole) (arg8 : Memref sig .tc .vmem S1x2112 .f32) (harg8 : arg8.IsWhole) (arg9 : Memref sig .tc .vmem S2112x64 .bf16) (harg9 : arg9.IsWhole) (arg10 : Memref sig .tc .vmem S1x64 .f32) (harg10 : arg10.IsWhole) (arg11 : Memref sig .tc .vmem S64x192 .bf16) (harg11 : arg11.IsWhole) (arg12 : Memref sig .tc .vmem S1x192 .f32) (harg12 : arg12.IsWhole) (arg13 : Memref sig .tc .vmem S64x192 .bf16) (harg13 : arg13.IsWhole) (arg14 : Memref sig .tc .vmem S1x192 .f32) (harg14 : arg14.IsWhole) (arg15 : Memref sig .tc .vmem S64x64 .bf16) (harg15 : arg15.IsWhole) (arg16 : Memref sig .tc .vmem S1x64 .f32) (harg16 : arg16.IsWhole) (arg17 : Memref sig .tc .vmem S64x4096 .bf16) (harg17 : arg17.IsWhole) (arg18 : Memref sig .tc .vmem S1x4096 .f32) (harg18 : arg18.IsWhole) (arg19 : Memref sig .tc .vmem S256x4096 .f32) (harg19 : arg19.IsWhole) (arg20 : Memref sig .tc .vmem S256x2112 .f32) (harg20 : arg20.IsWhole) (hc0 : ¬cond0_0 i) (hc1 : cond0_1 i) (x0 : Vec F S256x64 .f32) (x1 : Vec F S256x1024 .f32) (x2 : Vec F S256x64 .f32) (x3 : Vec F S64x2112 .bf16) (x4 : Vec F S1024x2112 .bf16) (x5 : Vec F S64x2112 .bf16) (x6 : Vec F S1x2112 .f32) (x7 : Vec F S2112x64 .bf16) (x8 : Vec F S1x64 .f32) (x9 : Vec F S64x192 .bf16) (x10 : Vec F S1x192 .f32) (x11 : Vec F S64x192 .bf16) (x12 : Vec F S1x192 .f32) (x13 : Vec F S64x64 .bf16) (x14 : Vec F S1x64 .f32) (x15 : Vec F S64x4096 .bf16) (x16 : Vec F S1x4096 .f32) (xs0 : Vec F S256x2112 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = k0_pay2 x1 xs0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S256x64) hz, View.ld_unit_zero (S := S256x1024) hz, View.ld_unit_zero (S := S64x2112) hz, View.ld_unit_zero (S := S1024x2112) hz, View.ld_unit_zero (S := S1x2112) hz, View.ld_unit_zero (S := S2112x64) hz, View.ld_unit_zero (S := S1x64) hz, View.ld_unit_zero (S := S64x192) hz, View.ld_unit_zero (S := S1x192) hz, View.ld_unit_zero (S := S64x64) hz, View.ld_unit_zero (S := S64x4096) hz, View.ld_unit_zero (S := S1x4096) hz, View.ld_unit_zero (S := S256x4096) hz, View.ld_unit_zero (S := S256x2112) hz, View.readCov_unit_zero (S := S256x2112) _ hz]

/-- The last point: the output block is the tail of the accumulator just stored. -/
theorem out_last (c : Dev nD) (i : grid0.Coords) (arg2 : Memref sig .tc .vmem S256x64 .f32) (harg2 : arg2.IsWhole) (arg3 : Memref sig .tc .vmem S256x1024 .f32) (harg3 : arg3.IsWhole) (arg4 : Memref sig .tc .vmem S256x64 .f32) (harg4 : arg4.IsWhole) (arg5 : Memref sig .tc .vmem S64x2112 .bf16) (harg5 : arg5.IsWhole) (arg6 : Memref sig .tc .vmem S1024x2112 .bf16) (harg6 : arg6.IsWhole) (arg7 : Memref sig .tc .vmem S64x2112 .bf16) (harg7 : arg7.IsWhole) (arg8 : Memref sig .tc .vmem S1x2112 .f32) (harg8 : arg8.IsWhole) (arg9 : Memref sig .tc .vmem S2112x64 .bf16) (harg9 : arg9.IsWhole) (arg10 : Memref sig .tc .vmem S1x64 .f32) (harg10 : arg10.IsWhole) (arg11 : Memref sig .tc .vmem S64x192 .bf16) (harg11 : arg11.IsWhole) (arg12 : Memref sig .tc .vmem S1x192 .f32) (harg12 : arg12.IsWhole) (arg13 : Memref sig .tc .vmem S64x192 .bf16) (harg13 : arg13.IsWhole) (arg14 : Memref sig .tc .vmem S1x192 .f32) (harg14 : arg14.IsWhole) (arg15 : Memref sig .tc .vmem S64x64 .bf16) (harg15 : arg15.IsWhole) (arg16 : Memref sig .tc .vmem S1x64 .f32) (harg16 : arg16.IsWhole) (arg17 : Memref sig .tc .vmem S64x4096 .bf16) (harg17 : arg17.IsWhole) (arg18 : Memref sig .tc .vmem S1x4096 .f32) (harg18 : arg18.IsWhole) (arg19 : Memref sig .tc .vmem S256x4096 .f32) (harg19 : arg19.IsWhole) (arg20 : Memref sig .tc .vmem S256x2112 .f32) (harg20 : arg20.IsWhole) (hc0 : ¬cond0_0 i) (hc1 : cond0_1 i) (x0 : Vec F S256x64 .f32) (x1 : Vec F S256x1024 .f32) (x2 : Vec F S256x64 .f32) (x3 : Vec F S64x2112 .bf16) (x4 : Vec F S1024x2112 .bf16) (x5 : Vec F S64x2112 .bf16) (x6 : Vec F S1x2112 .f32) (x7 : Vec F S2112x64 .bf16) (x8 : Vec F S1x64 .f32) (x9 : Vec F S64x192 .bf16) (x10 : Vec F S1x192 .f32) (x11 : Vec F S64x192 .bf16) (x12 : Vec F S1x192 .f32) (x13 : Vec F S64x64 .bf16) (x14 : Vec F S1x64 .f32) (x15 : Vec F S64x4096 .bf16) (x16 : Vec F S1x4096 .f32) (xs0 : Vec F S256x2112 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0 = k0_pay3 x0 (k0_pay6 (k0_pay2 x1 xs0 x4) x6 x7 x8 x9 x10) (k0_pay7 (k0_pay2 x1 xs0 x4) x6 x7 x8 x9 x10) (k0_pay8 (k0_pay2 x1 xs0 x4) x6 x7 x8 x9 x10) (k0_pay9 x0 x11 x12) (k0_pay10 x0 x11 x12) (k0_pay11 x0 x11 x12) x13 x14 x15 x16 := by
  unfold out0_C_17
  rw [View.read_writes_eq_canon _ _ _ (cover0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 x16 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S256x64) hz, View.ld_unit_zero (S := S256x1024) hz, View.ld_unit_zero (S := S64x2112) hz, View.ld_unit_zero (S := S1024x2112) hz, View.ld_unit_zero (S := S1x2112) hz, View.ld_unit_zero (S := S2112x64) hz, View.ld_unit_zero (S := S1x64) hz, View.ld_unit_zero (S := S64x192) hz, View.ld_unit_zero (S := S1x192) hz, View.ld_unit_zero (S := S64x64) hz, View.ld_unit_zero (S := S64x4096) hz, View.ld_unit_zero (S := S1x4096) hz, View.ld_unit_zero (S := S256x4096) hz, View.ld_unit_zero (S := S256x2112) hz, View.readCov_unit_zero (S := S256x2112) _ hz]

end Cert.KPieces

end
-- ==== Proof.Spec.lean ====
/-
  The arithmetic both programs compute, written once over the extended reals, row by row.

  For a node r the message network reads three things: the node's memory row, the node's row of the
  origin–destination matrix, and the node's random-walk embedding row.  Set side by side they form one row of
  4224 entries, which the first layer contracts with a row of the first weight matrix.  Everything after that
  first contraction (the bias and rectifier, the second layer, the gated recurrent update of the memory row, the
  two prediction layers) is a function of that contraction's 2112 values and of the node's memory row alone.

  Every weight matrix is used as given (rows = output units): unit n of a layer contracts the layer's input
  with row n of the matrix.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals. -/
abbrev Mat (R C : Nat) := (⟨2, ![R, C]⟩ : Shape).Idx → EReal

/-- A vector of extended reals. -/
abbrev Vc (C : Nat) := (⟨1, ![C]⟩ : Shape).Idx → EReal

/-- The word of +0.0 and the word of 1.0, as the programs spell them. -/
abbrev zeroW : EReal := Ideal.ofBits .f32 0x00000000#32
abbrev oneW : EReal := Ideal.ofBits .f32 0x3F800000#32

/-- The word of 1.0 denotes the number one. -/
theorem oneW_eq : oneW = 1 := by
  unfold oneW
  simp [Ideal.ofBits, Ideal.ieee, -EReal.coe_mul]
  norm_num

/-- Three matrices set side by side along their columns, read at an entry. -/
def cat3At {R A B C N : Nat} (a : Mat R A) (b : Mat R B) (c : Mat R C) (r : Fin R) (k : Fin N) : EReal :=
  if h : k.val < A then a (ix2 r ⟨k.val, h⟩)
  else if h' : k.val - A < B then b (ix2 r ⟨k.val - A, h'⟩)
  else if h'' : k.val - A - B < C then c (ix2 r ⟨k.val - A - B, h''⟩)
  else 0

/-- The first layer's contraction for node r and hidden unit h: the node's 4224-entry row against row h of the
    first weight matrix. -/
def pre1 (mem : Mat 4096 64) (od : Mat 4096 4096) (rw : Mat 4096 64) (W1 : Mat 2112 4224)
    (r : Fin 4096) (h : Fin 2112) : EReal :=
  ∑ j : Fin 4224, cat3At mem od rw r j * W1 (ix2 h j)

/-! ## Everything after the first contraction, for one node -/

section Tail

variable (a : Fin 2112 → EReal) (mr : Fin 64 → EReal)
variable (b1 : Vc 2112) (W2 : Mat 64 2112) (b2 : Vc 64)
variable (Wi : Mat 192 64) (bi : Vc 192) (Wh : Mat 192 64) (bh : Vc 192)
variable (Wp1 : Mat 64 64) (bp1 : Vc 64) (Wp2 : Mat 4096 64) (bp2 : Vc 4096)

/-- Hidden activation: bias, then the rectifier. -/
def hid (h : Fin 2112) : EReal := max (a h + b1 (ix1 h)) zeroW

/-- The message: the second layer. -/
def msg (n : Fin 64) : EReal := (∑ h : Fin 2112, hid a b1 h * W2 (ix2 n h)) + b2 (ix1 n)

/-- The input-side gates of the recurrent cell. -/
def gi (g : Fin 192) : EReal := (∑ n : Fin 64, msg a b1 W2 b2 n * Wi (ix2 g n)) + bi (ix1 g)

/-- The state-side gates of the recurrent cell. -/
def gh (g : Fin 192) : EReal := (∑ n : Fin 64, mr n * Wh (ix2 g n)) + bh (ix1 g)

/-- Gate coordinates: the three spans of 64 inside 192. -/
abbrev g0 (l : Fin 64) : Fin 192 := ⟨0 + l.val, by have := l.isLt; omega⟩
abbrev g1 (l : Fin 64) : Fin 192 := ⟨64 + l.val, by have := l.isLt; omega⟩
abbrev g2 (l : Fin 64) : Fin 192 := ⟨128 + l.val, by have := l.isLt; omega⟩

/-- Reset gate. -/
def gr (l : Fin 64) : EReal :=
  Ideal.logistic (gi a b1 W2 b2 Wi bi (g0 l) + gh mr Wh bh (g0 l))

/-- Update gate. -/
def gz (l : Fin 64) : EReal :=
  Ideal.logistic (gi a b1 W2 b2 Wi bi (g1 l) + gh mr Wh bh (g1 l))

/-- Candidate state. -/
def gn (l : Fin 64) : EReal :=
  Ideal.tanh (gi a b1 W2 b2 Wi bi (g2 l) + gr a mr b1 W2 b2 Wi bi Wh bh l * gh mr Wh bh (g2 l))

/-- The updated memory row. -/
def upd (l : Fin 64) : EReal :=
  (oneW - gz a mr b1 W2 b2 Wi bi Wh bh l) * gn a mr b1 W2 b2 Wi bi Wh bh l
    + gz a mr b1 W2 b2 Wi bi Wh bh l * mr l

/-- First prediction layer: bias, rectifier. -/
def pr (j : Fin 64) : EReal :=
  max ((∑ l : Fin 64, upd a mr b1 W2 b2 Wi bi Wh bh l * Wp1 (ix2 j l)) + bp1 (ix1 j)) zeroW

/-- The predicted row of the origin–destination matrix. -/
def out (c : Fin 4096) : EReal :=
  (∑ j : Fin 64, pr a mr b1 W2 b2 Wi bi Wh bh Wp1 bp1 j * Wp2 (ix2 c j)) + bp2 (ix1 c)

end Tail

end Cert.Spec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KPay.lean ====
/-
  The kernel body's three stored values, each read at one entry over the extended reals.

  The value stored when a row block is first met is the memory block times the first 64 rows of the (transposed)
  first weight matrix plus the walk-embedding block times its last 64 rows.  The value stored at every point is
  what the accumulator held plus the origin–destination block times the matching 1024 rows.  The value stored
  into the output at a row block's last point is, row by row, the network's tail applied to the accumulator's
  row and the memory block's row.
-/
import proofs.«161436_j58033598104174_1_alg».proof.Proof.Gen.KernelIdeal.Skeleton
import proofs.«161436_j58033598104174_1_alg».proof.Proof.Spec
import proofs.«161436_j58033598104174_1_alg».proof.Proof.LibDot
import Idealize.ShloMosaic.Lib.Pipeline.Value
import Idealize.ShloMosaic.Lib.ValueLayout

noncomputable section

open scoped BigOperators

namespace Cert.KPay

open Idealize.ShloMosaic Idealize.ShloMosaic.ValueIdx Cert.KernelIdeal Cert.KernelIdeal.Gen

/-- The value stored at a row block's first point, at entry (p, h). -/
theorem pay1_at (x0 x2 : Vec Ideal S256x64 .f32) (x3 x5 : Vec Ideal S64x2112 .bf16) (p : Fin 256) (h : Fin 2112) :
    k0_pay1 (F := Ideal) x0 x2 x3 x5 (ix2 p h)
      = (∑ j : Fin 64, x0 (ix2 p j) * x3 (ix2 j h)) + ∑ j : Fin 64, x2 (ix2 p j) * x5 (ix2 j h) := by
  unfold k0_pay1
  simp only [shapeCast_self]
  exact congrArg₂ (· + ·)
    (Cert.LibDot.matmul_zero_at dot_S256x64_S64x2112_S256x2112_1_0_0_1_n_n rfl rfl rfl rfl rfl rfl none
      (truncf FTy.bf16 x0 bitsLt_bf16_f32) x3 p h)
    (Cert.LibDot.matmul_zero_at dot_S256x64_S64x2112_S256x2112_1_0_0_1_n_n rfl rfl rfl rfl rfl rfl none
      (truncf FTy.bf16 x2 bitsLt_bf16_f32) x5 p h)

/-- The accumulator's update, at entry (p, h). -/
theorem pay2_at (x1 : Vec Ideal S256x1024 .f32) (acc : Vec Ideal S256x2112 .f32) (x4 : Vec Ideal S1024x2112 .bf16)
    (p : Fin 256) (h : Fin 2112) :
    k0_pay2 (F := Ideal) x1 acc x4 (ix2 p h) = acc (ix2 p h) + ∑ j : Fin 1024, x1 (ix2 p j) * x4 (ix2 j h) := by
  unfold k0_pay2
  simp only [shapeCast_self]
  exact congrArg (acc (ix2 p h) + ·)
    (Cert.LibDot.matmul_zero_at dot_S256x1024_S1024x2112_S256x2112_1_0_0_1_n_n rfl rfl rfl rfl rfl rfl none
      (truncf FTy.bf16 x1 bitsLt_bf16_f32) x4 p h)

/-- A layer "contract the row with the staged weights, add the staged bias", read at (p, n): the staged weights are
    the transpose of the given matrix and the staged bias is its one-row form. -/
private theorem layer_at {K N : Nat} {φ₁ φ₂ : FTy} (d : DotDims ⟨2, ![256, K]⟩ ⟨2, ![K, N]⟩ ⟨2, ![256, N]⟩)
    (hl : d.lhsContracting = [1]) (hr : d.rhsContracting = [0]) (hln : d.lhsNonContracting = [0])
    (hrn : d.rhsNonContracting = [1]) (hlb : d.lhsBatch = []) (hrb : d.rhsBatch = [])
    (v : FVec Ideal ⟨2, ![256, K]⟩ φ₁) (w : FVec Ideal ⟨2, ![K, N]⟩ φ₂) (b : FVec Ideal ⟨2, ![1, N]⟩ .f32)
    (hb : (⟨2, ![1, N]⟩ : Shape).Broadcasts ⟨2, ![256, N]⟩)
    (a : Fin K → EReal) (W : Spec.Mat N K) (bb : Spec.Vc N) (p : Fin 256) (n : Fin N)
    (hv : ∀ k, v (ix2 p k) = a k) (hw : ∀ k, w (ix2 k n) = W (ix2 n k)) (hbb : b (ix2 (0 : Fin 1) n) = bb (ix1 n)) :
    addf (matmul d none v w (constant ⟨2, ![256, N]⟩ .f32 0x00000000#32)) (broadcastTo ⟨2, ![256, N]⟩ b hb) (ix2 p n)
      = (∑ k : Fin K, a k * W (ix2 n k)) + bb (ix1 n) := by
  refine congrArg₂ (· + ·) ?_ ((broadcastTo_1b_ab_apply b hb p n).trans hbb)
  refine (Cert.LibDot.matmul_zero_at d hl hr hln hrn hlb hrb none v w p n).trans ?_
  exact Finset.sum_congr rfl fun k _ => congrArg₂ (· * ·) (hv k) (hw k)

/-- The hidden activation at (p, h): the accumulator plus the staged bias, through the rectifier. -/
private theorem hid_at (acc : Vec Ideal S256x2112 .f32) (x6 : Vec Ideal S1x2112 .f32)
    (hb : S1x2112.Broadcasts S256x2112) (b1 : Spec.Vc 2112)
    (h6 : ∀ h : Fin 2112, x6 (ix2 (0 : Fin 1) h) = b1 (ix1 h)) (p : Fin 256) (h : Fin 2112) :
    (maximumf (addf acc (broadcastTo S256x2112 x6 hb))
        (broadcast S256x2112 (FloatOps.ofBits (F := Ideal) .f32 0x00000000#32)) : FVec Ideal S256x2112 .f32) (ix2 p h)
      = Spec.hid (fun h => acc (ix2 p h)) b1 h := by
  unfold Spec.hid
  show max (acc (ix2 p h) + broadcastTo S256x2112 x6 hb (ix2 p h)) (Ideal.ofBits .f32 0x00000000#32) = _
  rw [broadcastTo_1b_ab_apply x6 hb p h, h6 h]

/-- The input-side gate values at (p, g). -/
private theorem pay4_at (acc : Vec Ideal S256x2112 .f32)
    (x6 : Vec Ideal S1x2112 .f32) (x7 : Vec Ideal S2112x64 .bf16) (x8 : Vec Ideal S1x64 .f32)
    (x9 : Vec Ideal S64x192 .bf16) (x10 : Vec Ideal S1x192 .f32)
    (b1 : Spec.Vc 2112) (W2 : Spec.Mat 64 2112) (b2 : Spec.Vc 64) (Wi : Spec.Mat 192 64) (bi : Spec.Vc 192)
    (h6 : ∀ h : Fin 2112, x6 (ix2 (0 : Fin 1) h) = b1 (ix1 h))
    (h7 : ∀ (h : Fin 2112) (n : Fin 64), x7 (ix2 h n) = W2 (ix2 n h))
    (h8 : ∀ n : Fin 64, x8 (ix2 (0 : Fin 1) n) = b2 (ix1 n))
    (h9 : ∀ (n : Fin 64) (g : Fin 192), x9 (ix2 n g) = Wi (ix2 g n))
    (h10 : ∀ g : Fin 192, x10 (ix2 (0 : Fin 1) g) = bi (ix1 g))
    (p : Fin 256) (g : Fin 192) :
    k0_pay4 (F := Ideal) acc x6 x7 x8 x9 x10 (ix2 p g) = Spec.gi (fun h => acc (ix2 p h)) b1 W2 b2 Wi bi g := by
  unfold k0_pay4
  simp only [shapeCast_self]
  unfold Spec.gi
  refine layer_at dot_S256x64_S64x192_S256x192_1_0_0_1_n_n rfl rfl rfl rfl rfl rfl _ x9 x10 _ _ Wi bi p g
    (fun n => ?_) (fun n => h9 n g) (h10 g)
  unfold Spec.msg
  exact layer_at dot_S256x2112_S2112x64_S256x64_1_0_0_1_n_n rfl rfl rfl rfl rfl rfl _ x7 x8 _ _ W2 b2 p n
    (fun h => hid_at acc x6 _ b1 h6 p h) (fun h => h7 h n) (h8 n)

/-- The state-side gate values at (p, g). -/
private theorem pay5_at (x0 : Vec Ideal S256x64 .f32) (x11 : Vec Ideal S64x192 .bf16) (x12 : Vec Ideal S1x192 .f32)
    (Wh : Spec.Mat 192 64) (bh : Spec.Vc 192)
    (h11 : ∀ (n : Fin 64) (g : Fin 192), x11 (ix2 n g) = Wh (ix2 g n))
    (h12 : ∀ g : Fin 192, x12 (ix2 (0 : Fin 1) g) = bh (ix1 g))
    (p : Fin 256) (g : Fin 192) :
    k0_pay5 (F := Ideal) x0 x11 x12 (ix2 p g) = Spec.gh (fun l => x0 (ix2 p l)) Wh bh g := by
  unfold k0_pay5
  simp only [shapeCast_self]
  unfold Spec.gh
  exact layer_at dot_S256x64_S64x192_S256x192_1_0_0_1_n_n rfl rfl rfl rfl rfl rfl _ x11 x12 _ _ Wh bh p g
    (fun _ => rfl) (fun n => h11 n g) (h12 g)

/-- The rectifier at an index: the larger of the entry and the word of zero. -/
private theorem relu_at {s : Shape} (v : FVec Ideal s .f32) (i : s.Idx) (e : EReal) (hv : v i = e) :
    (truncf .bf16 (maximumf v (broadcast s (FloatOps.ofBits (F := Ideal) .f32 0x00000000#32))) bitsLt_bf16_f32
        : FVec Ideal s .bf16) i = max e Spec.zeroW := by
  rw [← hv]; rfl

/-- The gated update at (p, l), from the six gate slices read at (p, l). -/
private theorem upd_at (x0 v48 v49 v50 v51 v52 v53 : FVec Ideal S256x64 .f32)
    (a : Fin 2112 → EReal) (mr : Fin 64 → EReal)
    (b1 : Spec.Vc 2112) (W2 : Spec.Mat 64 2112) (b2 : Spec.Vc 64) (Wi : Spec.Mat 192 64) (bi : Spec.Vc 192)
    (Wh : Spec.Mat 192 64) (bh : Spec.Vc 192) (p : Fin 256) (l : Fin 64)
    (h0 : x0 (ix2 p l) = mr l)
    (h48 : v48 (ix2 p l) = Spec.gi a b1 W2 b2 Wi bi (Spec.g0 l))
    (h49 : v49 (ix2 p l) = Spec.gi a b1 W2 b2 Wi bi (Spec.g1 l))
    (h50 : v50 (ix2 p l) = Spec.gi a b1 W2 b2 Wi bi (Spec.g2 l))
    (h51 : v51 (ix2 p l) = Spec.gh mr Wh bh (Spec.g0 l))
    (h52 : v52 (ix2 p l) = Spec.gh mr Wh bh (Spec.g1 l))
    (h53 : v53 (ix2 p l) = Spec.gh mr Wh bh (Spec.g2 l)) :
    (truncf .bf16
        (addf
          (mulf (subf (broadcast S256x64 (FloatOps.ofBits (F := Ideal) .f32 0x3F800000#32)) (logistic (addf v49 v52)))
            (tanh (addf v50 (mulf (logistic (addf v48 v51)) v53))))
          (mulf (logistic (addf v49 v52)) x0))
        bitsLt_bf16_f32 : FVec Ideal S256x64 .bf16) (ix2 p l)
      = Spec.upd a mr b1 W2 b2 Wi bi Wh bh l := by
  unfold Spec.upd Spec.gn Spec.gz Spec.gr
  rw [← h0, ← h48, ← h49, ← h50, ← h51, ← h52, ← h53]
  rfl

/-- A 64-column span of a 192-column block, read at (p, l). -/
private theorem span_at (o : Nat) (X : FVec Ideal S256x192 .f32) (hs : S256x192.Slices ![0, o] S256x64)
    (p : Fin 256) (l : Fin 64) (g : Fin 192) (hg : g.val = o + l.val) (e : EReal) (hX : X (ix2 p g) = e) :
    extractStridedSlice S256x64 ![0, o] X hs (ix2 p l) = e :=
  (slice2_axis1_apply o X hs p l g hg).trans hX

/-- The output block's value at entry (p, c): the network's tail on row p of the accumulator and of the memory
    block, the staged weights being the transposes of the given matrices and the staged biases their one-row forms. -/
theorem out_at (x0 : Vec Ideal S256x64 .f32) (acc : Vec Ideal S256x2112 .f32)
    (x6 : Vec Ideal S1x2112 .f32) (x7 : Vec Ideal S2112x64 .bf16) (x8 : Vec Ideal S1x64 .f32)
    (x9 : Vec Ideal S64x192 .bf16) (x10 : Vec Ideal S1x192 .f32) (x11 : Vec Ideal S64x192 .bf16)
    (x12 : Vec Ideal S1x192 .f32) (x13 : Vec Ideal S64x64 .bf16) (x14 : Vec Ideal S1x64 .f32)
    (x15 : Vec Ideal S64x4096 .bf16) (x16 : Vec Ideal S1x4096 .f32)
    (b1 : Spec.Vc 2112) (W2 : Spec.Mat 64 2112) (b2 : Spec.Vc 64) (Wi : Spec.Mat 192 64) (bi : Spec.Vc 192)
    (Wh : Spec.Mat 192 64) (bh : Spec.Vc 192) (Wp1 : Spec.Mat 64 64) (bp1 : Spec.Vc 64) (Wp2 : Spec.Mat 4096 64)
    (bp2 : Spec.Vc 4096)
    (h6 : ∀ h : Fin 2112, x6 (ix2 (0 : Fin 1) h) = b1 (ix1 h))
    (h7 : ∀ (h : Fin 2112) (n : Fin 64), x7 (ix2 h n) = W2 (ix2 n h))
    (h8 : ∀ n : Fin 64, x8 (ix2 (0 : Fin 1) n) = b2 (ix1 n))
    (h9 : ∀ (n : Fin 64) (g : Fin 192), x9 (ix2 n g) = Wi (ix2 g n))
    (h10 : ∀ g : Fin 192, x10 (ix2 (0 : Fin 1) g) = bi (ix1 g))
    (h11 : ∀ (n : Fin 64) (g : Fin 192), x11 (ix2 n g) = Wh (ix2 g n))
    (h12 : ∀ g : Fin 192, x12 (ix2 (0 : Fin 1) g) = bh (ix1 g))
    (h13 : ∀ (l j : Fin 64), x13 (ix2 l j) = Wp1 (ix2 j l))
    (h14 : ∀ j : Fin 64, x14 (ix2 (0 : Fin 1) j) = bp1 (ix1 j))
    (h15 : ∀ (j : Fin 64) (c : Fin 4096), x15 (ix2 j c) = Wp2 (ix2 c j))
    (h16 : ∀ c : Fin 4096, x16 (ix2 (0 : Fin 1) c) = bp2 (ix1 c))
    (p : Fin 256) (c : Fin 4096) :
    k0_pay3 (F := Ideal) x0 (k0_pay6 acc x6 x7 x8 x9 x10) (k0_pay7 acc x6 x7 x8 x9 x10) (k0_pay8 acc x6 x7 x8 x9 x10)
        (k0_pay9 x0 x11 x12) (k0_pay10 x0 x11 x12) (k0_pay11 x0 x11 x12) x13 x14 x15 x16 (ix2 p c)
      = Spec.out (fun h => acc (ix2 p h)) (fun l => x0 (ix2 p l)) b1 W2 b2 Wi bi Wh bh Wp1 bp1 Wp2 bp2 c := by
  have hgi : ∀ g : Fin 192, k0_pay4 (F := Ideal) acc x6 x7 x8 x9 x10 (ix2 p g)
      = Spec.gi (fun h => acc (ix2 p h)) b1 W2 b2 Wi bi g :=
    fun g => pay4_at acc x6 x7 x8 x9 x10 b1 W2 b2 Wi bi h6 h7 h8 h9 h10 p g
  have hgh : ∀ g : Fin 192, k0_pay5 (F := Ideal) x0 x11 x12 (ix2 p g) = Spec.gh (fun l => x0 (ix2 p l)) Wh bh g :=
    fun g => pay5_at x0 x11 x12 Wh bh h11 h12 p g
  unfold k0_pay3
  simp only [shapeCast_self]
  unfold Spec.out
  refine layer_at dot_S256x64_S64x4096_S256x4096_1_0_0_1_n_n rfl rfl rfl rfl rfl rfl _ x15 x16 _ _ Wp2 bp2 p c
    (fun j => ?_) (fun j => h15 j c) (h16 c)
  unfold Spec.pr
  refine relu_at _ _ _ ?_
  refine layer_at dot_S256x64_S64x64_S256x64_1_0_0_1_n_n rfl rfl rfl rfl rfl rfl _ x13 x14 _ _ Wp1 bp1 p j
    (fun l => ?_) (fun l => h13 l j) (h14 j)
  refine upd_at x0 _ _ _ _ _ _ _ _ b1 W2 b2 Wi bi Wh bh p l rfl ?_ ?_ ?_ ?_ ?_ ?_
  · unfold k0_pay6; exact span_at 0 _ _ p l (Spec.g0 l) rfl _ (hgi _)
  · unfold k0_pay7; exact span_at 64 _ _ p l (Spec.g1 l) rfl _ (hgi _)
  · unfold k0_pay8; exact span_at 128 _ _ p l (Spec.g2 l) rfl _ (hgi _)
  · unfold k0_pay9; exact span_at 0 _ _ p l (Spec.g0 l) rfl _ (hgh _)
  · unfold k0_pay10; exact span_at 64 _ _ p l (Spec.g1 l) rfl _ (hgh _)
  · unfold k0_pay11; exact span_at 128 _ _ p l (Spec.g2 l) rfl _ (hgh _)

end Cert.KPay

end
-- ==== Proof.KBlocks.lean ====
/-
  What each staged block holds, entry by entry, in terms of the program's argument arrays.

  The grid runs over 16 row blocks of 256 nodes and, inside each, 4 column runs of 1024.  Point t belongs to row
  block t / 4 and column run t % 4.  The memory block, the origin–destination block and the walk-embedding block
  are rows 256·(t / 4) + p of their arrays (the origin–destination block also columns 1024·(t % 4) + j).  The
  staged weights are transposes (and column spans) of the given matrices and the staged biases their one-row forms.
-/
import proofs.«161436_j58033598104174_1_alg».proof.Proof.Gen.KernelIdeal.Frame
import Idealize.ShloMosaic.Lib.Pipeline.Value
import Idealize.ShloMosaic.Lib.ValueLayout
import Idealize.ShloMosaic.Lib.StableHlo.Run

noncomputable section

namespace Cert.KBlocks

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The node that row p of point t's row block is. -/
abbrev rowOf (t : Fin cfg0.N) (p : Fin 256) : Fin 4096 :=
  ⟨256 * (t.val / 4) + p.val, by have := t.isLt; have hN : cfg0.N = 64 := N_0; have := p.isLt; omega⟩

/-- The origin–destination column that column j of point t's column run is. -/
abbrev colOf (t : Fin cfg0.N) (j : Fin 1024) : Fin 4096 :=
  ⟨1024 * (t.val % 4) + j.val, by have := j.isLt; omega⟩

/-- The column of the first weight matrix that meets that origin–destination column. -/
abbrev w1Col (t : Fin cfg0.N) (j : Fin 1024) : Fin 4224 :=
  ⟨64 + (1024 * (t.val % 4) + j.val), by have := j.isLt; omega⟩

/-! ## The blocks, at their literal types -/

abbrev B0 (c : Dev nD) (t : Fin cfg0.N) : Vec Ideal S256x64 .f32 := iblk m c 0 t
abbrev B1 (c : Dev nD) (t : Fin cfg0.N) : Vec Ideal S256x1024 .f32 := iblk m c 1 t
abbrev B2 (c : Dev nD) (t : Fin cfg0.N) : Vec Ideal S256x64 .f32 := iblk m c 2 t
abbrev B3 (c : Dev nD) (t : Fin cfg0.N) : Vec Ideal S64x2112 .bf16 := iblk m c 3 t
abbrev B4 (c : Dev nD) (t : Fin cfg0.N) : Vec Ideal S1024x2112 .bf16 := iblk m c 4 t
abbrev B5 (c : Dev nD) (t : Fin cfg0.N) : Vec Ideal S64x2112 .bf16 := iblk m c 5 t
abbrev B6 (c : Dev nD) (t : Fin cfg0.N) : Vec Ideal S1x2112 .f32 := iblk m c 6 t
abbrev B7 (c : Dev nD) (t : Fin cfg0.N) : Vec Ideal S2112x64 .bf16 := iblk m c 7 t
abbrev B8 (c : Dev nD) (t : Fin cfg0.N) : Vec Ideal S1x64 .f32 := iblk m c 8 t
abbrev B9 (c : Dev nD) (t : Fin cfg0.N) : Vec Ideal S64x192 .bf16 := iblk m c 9 t
abbrev B10 (c : Dev nD) (t : Fin cfg0.N) : Vec Ideal S1x192 .f32 := iblk m c 10 t
abbrev B11 (c : Dev nD) (t : Fin cfg0.N) : Vec Ideal S64x192 .bf16 := iblk m c 11 t
abbrev B12 (c : Dev nD) (t : Fin cfg0.N) : Vec Ideal S1x192 .f32 := iblk m c 12 t
abbrev B13 (c : Dev nD) (t : Fin cfg0.N) : Vec Ideal S64x64 .bf16 := iblk m c 13 t
abbrev B14 (c : Dev nD) (t : Fin cfg0.N) : Vec Ideal S1x64 .f32 := iblk m c 14 t
abbrev B15 (c : Dev nD) (t : Fin cfg0.N) : Vec Ideal S64x4096 .bf16 := iblk m c 15 t
abbrev B16 (c : Dev nD) (t : Fin cfg0.N) : Vec Ideal S1x4096 .f32 := iblk m c 16 t

/-- The walk-embedding array as the region finds it (host operations computed it from the arguments). -/
abbrev rwArr (c : Dev nD) : Vec Ideal S4096x64 .f32 := V m c main_v14

/-! ## Where each window's block sits, decided once over the grid -/

theorem idx0 : ∀ t : Fin cfg0.N, win0_0.index t 0 = t.val / 4 ∧ win0_0.index t 1 = 0 :=
  (by decide +kernel : ∀ t : Fin grid0.N, _)
theorem idx1 : ∀ t : Fin cfg0.N, win0_1.index t 0 = t.val / 4 ∧ win0_1.index t 1 = t.val % 4 :=
  (by decide +kernel : ∀ t : Fin grid0.N, _)
theorem idx2 : ∀ t : Fin cfg0.N, win0_2.index t 0 = t.val / 4 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = t.val % 4 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)
theorem idx11 : ∀ t : Fin cfg0.N, win0_11.index t 0 = 0 ∧ win0_11.index t 1 = 0 :=
  (by decide +kernel : ∀ t : Fin grid0.N, _)
theorem idx12 : ∀ t : Fin cfg0.N, win0_12.index t 0 = 0 ∧ win0_12.index t 1 = 0 :=
  (by decide +kernel : ∀ t : Fin grid0.N, _)
theorem idx13 : ∀ t : Fin cfg0.N, win0_13.index t 0 = 0 ∧ win0_13.index t 1 = 0 :=
  (by decide +kernel : ∀ t : Fin grid0.N, _)
theorem idx14 : ∀ t : Fin cfg0.N, win0_14.index t 0 = 0 ∧ win0_14.index t 1 = 0 :=
  (by decide +kernel : ∀ t : Fin grid0.N, _)
theorem idx15 : ∀ t : Fin cfg0.N, win0_15.index t 0 = 0 ∧ win0_15.index t 1 = 0 :=
  (by decide +kernel : ∀ t : Fin grid0.N, _)
theorem idx16 : ∀ t : Fin cfg0.N, win0_16.index t 0 = 0 ∧ win0_16.index t 1 = 0 :=
  (by decide +kernel : ∀ t : Fin grid0.N, _)

/-! ## A block's entry is its array's entry: the block's coordinate on an axis is
    (block index) × (block size) + (coordinate inside the block) -/

theorem read0 (t : Fin cfg0.N) (X : Vec Ideal S4096x64 .f32) (p : Fin 256) (j : Fin 64) :
    ((cfg0.win 0).blk t).view.read (Elt Ideal) X (ix2 p j) = X (ix2 (rowOf t p) j) := by
  obtain ⟨e0, e1⟩ := idx0 t
  rw [View.read_apply]
  refine congrArg X (funext fun a => ?_)
  apply Fin.ext
  match a with
  | ⟨0, _⟩ => show win0_0.index t 0 * 256 + 1 * p.val = 256 * (t.val / 4) + p.val; omega
  | ⟨1, _⟩ => show win0_0.index t 1 * 64 + 1 * j.val = j.val; omega

theorem read1 (t : Fin cfg0.N) (X : Vec Ideal S4096x4096 .f32) (p : Fin 256) (j : Fin 1024) :
    ((cfg0.win 1).blk t).view.read (Elt Ideal) X (ix2 p j) = X (ix2 (rowOf t p) (colOf t j)) := by
  obtain ⟨e0, e1⟩ := idx1 t
  rw [View.read_apply]
  refine congrArg X (funext fun a => ?_)
  apply Fin.ext
  match a with
  | ⟨0, _⟩ => show win0_1.index t 0 * 256 + 1 * p.val = 256 * (t.val / 4) + p.val; omega
  | ⟨1, _⟩ => show win0_1.index t 1 * 1024 + 1 * j.val = 1024 * (t.val % 4) + j.val; omega

theorem read2 (t : Fin cfg0.N) (X : Vec Ideal S4096x64 .f32) (p : Fin 256) (j : Fin 64) :
    ((cfg0.win 2).blk t).view.read (Elt Ideal) X (ix2 p j) = X (ix2 (rowOf t p) j) := by
  obtain ⟨e0, e1⟩ := idx2 t
  rw [View.read_apply]
  refine congrArg X (funext fun a => ?_)
  apply Fin.ext
  match a with
  | ⟨0, _⟩ => show win0_2.index t 0 * 256 + 1 * p.val = 256 * (t.val / 4) + p.val; omega
  | ⟨1, _⟩ => show win0_2.index t 1 * 64 + 1 * j.val = j.val; omega

theorem read3 (t : Fin cfg0.N) (X : Vec Ideal S64x2112 .bf16) (j : Fin 64) (h : Fin 2112) :
    ((cfg0.win 3).blk t).view.read (Elt Ideal) X (ix2 j h) = X (ix2 j h) := by
  obtain ⟨e0, e1⟩ := idx3 t
  rw [View.read_apply]
  refine congrArg X (funext fun a => ?_)
  apply Fin.ext
  match a with
  | ⟨0, _⟩ => show win0_3.index t 0 * 64 + 1 * j.val = j.val; omega
  | ⟨1, _⟩ => show win0_3.index t 1 * 2112 + 1 * h.val = h.val; omega

theorem read4 (t : Fin cfg0.N) (X : Vec Ideal S4096x2112 .bf16) (j : Fin 1024) (h : Fin 2112) :
    ((cfg0.win 4).blk t).view.read (Elt Ideal) X (ix2 j h) = X (ix2 (colOf t j) h) := by
  obtain ⟨e0, e1⟩ := idx4 t
  rw [View.read_apply]
  refine congrArg X (funext fun a => ?_)
  apply Fin.ext
  match a with
  | ⟨0, _⟩ => show win0_4.index t 0 * 1024 + 1 * j.val = 1024 * (t.val % 4) + j.val; omega
  | ⟨1, _⟩ => show win0_4.index t 1 * 2112 + 1 * h.val = h.val; omega

theorem read5 (t : Fin cfg0.N) (X : Vec Ideal S64x2112 .bf16) (j : Fin 64) (h : Fin 2112) :
    ((cfg0.win 5).blk t).view.read (Elt Ideal) X (ix2 j h) = X (ix2 j h) := by
  obtain ⟨e0, e1⟩ := idx5 t
  rw [View.read_apply]
  refine congrArg X (funext fun a => ?_)
  apply Fin.ext
  match a with
  | ⟨0, _⟩ => show win0_5.index t 0 * 64 + 1 * j.val = j.val; omega
  | ⟨1, _⟩ => show win0_5.index t 1 * 2112 + 1 * h.val = h.val; omega

theorem read6 (t : Fin cfg0.N) (X : Vec Ideal S1x2112 .f32) (h : Fin 2112) :
    ((cfg0.win 6).blk t).view.read (Elt Ideal) X (ix2 (0 : Fin 1) h) = X (ix2 (0 : Fin 1) h) := by
  obtain ⟨e0, e1⟩ := idx6 t
  rw [View.read_apply]
  refine congrArg X (funext fun a => ?_)
  apply Fin.ext
  match a with
  | ⟨0, _⟩ => show win0_6.index t 0 * 1 + 1 * 0 = 0; omega
  | ⟨1, _⟩ => show win0_6.index t 1 * 2112 + 1 * h.val = h.val; omega

theorem read7 (t : Fin cfg0.N) (X : Vec Ideal S2112x64 .bf16) (h : Fin 2112) (n : Fin 64) :
    ((cfg0.win 7).blk t).view.read (Elt Ideal) X (ix2 h n) = X (ix2 h n) := by
  obtain ⟨e0, e1⟩ := idx7 t
  rw [View.read_apply]
  refine congrArg X (funext fun a => ?_)
  apply Fin.ext
  match a with
  | ⟨0, _⟩ => show win0_7.index t 0 * 2112 + 1 * h.val = h.val; omega
  | ⟨1, _⟩ => show win0_7.index t 1 * 64 + 1 * n.val = n.val; omega

theorem read8 (t : Fin cfg0.N) (X : Vec Ideal S1x64 .f32) (n : Fin 64) :
    ((cfg0.win 8).blk t).view.read (Elt Ideal) X (ix2 (0 : Fin 1) n) = X (ix2 (0 : Fin 1) n) := by
  obtain ⟨e0, e1⟩ := idx8 t
  rw [View.read_apply]
  refine congrArg X (funext fun a => ?_)
  apply Fin.ext
  match a with
  | ⟨0, _⟩ => show win0_8.index t 0 * 1 + 1 * 0 = 0; omega
  | ⟨1, _⟩ => show win0_8.index t 1 * 64 + 1 * n.val = n.val; omega

theorem read9 (t : Fin cfg0.N) (X : Vec Ideal S64x192 .bf16) (n : Fin 64) (g : Fin 192) :
    ((cfg0.win 9).blk t).view.read (Elt Ideal) X (ix2 n g) = X (ix2 n g) := by
  obtain ⟨e0, e1⟩ := idx9 t
  rw [View.read_apply]
  refine congrArg X (funext fun a => ?_)
  apply Fin.ext
  match a with
  | ⟨0, _⟩ => show win0_9.index t 0 * 64 + 1 * n.val = n.val; omega
  | ⟨1, _⟩ => show win0_9.index t 1 * 192 + 1 * g.val = g.val; omega

theorem read10 (t : Fin cfg0.N) (X : Vec Ideal S1x192 .f32) (g : Fin 192) :
    ((cfg0.win 10).blk t).view.read (Elt Ideal) X (ix2 (0 : Fin 1) g) = X (ix2 (0 : Fin 1) g) := by
  obtain ⟨e0, e1⟩ := idx10 t
  rw [View.read_apply]
  refine congrArg X (funext fun a => ?_)
  apply Fin.ext
  match a with
  | ⟨0, _⟩ => show win0_10.index t 0 * 1 + 1 * 0 = 0; omega
  | ⟨1, _⟩ => show win0_10.index t 1 * 192 + 1 * g.val = g.val; omega

theorem read11 (t : Fin cfg0.N) (X : Vec Ideal S64x192 .bf16) (n : Fin 64) (g : Fin 192) :
    ((cfg0.win 11).blk t).view.read (Elt Ideal) X (ix2 n g) = X (ix2 n g) := by
  obtain ⟨e0, e1⟩ := idx11 t
  rw [View.read_apply]
  refine congrArg X (funext fun a => ?_)
  apply Fin.ext
  match a with
  | ⟨0, _⟩ => show win0_11.index t 0 * 64 + 1 * n.val = n.val; omega
  | ⟨1, _⟩ => show win0_11.index t 1 * 192 + 1 * g.val = g.val; omega

theorem read12 (t : Fin cfg0.N) (X : Vec Ideal S1x192 .f32) (g : Fin 192) :
    ((cfg0.win 12).blk t).view.read (Elt Ideal) X (ix2 (0 : Fin 1) g) = X (ix2 (0 : Fin 1) g) := by
  obtain ⟨e0, e1⟩ := idx12 t
  rw [View.read_apply]
  refine congrArg X (funext fun a => ?_)
  apply Fin.ext
  match a with
  | ⟨0, _⟩ => show win0_12.index t 0 * 1 + 1 * 0 = 0; omega
  | ⟨1, _⟩ => show win0_12.index t 1 * 192 + 1 * g.val = g.val; omega

theorem read13 (t : Fin cfg0.N) (X : Vec Ideal S64x64 .bf16) (l j : Fin 64) :
    ((cfg0.win 13).blk t).view.read (Elt Ideal) X (ix2 l j) = X (ix2 l j) := by
  obtain ⟨e0, e1⟩ := idx13 t
  rw [View.read_apply]
  refine congrArg X (funext fun a => ?_)
  apply Fin.ext
  match a with
  | ⟨0, _⟩ => show win0_13.index t 0 * 64 + 1 * l.val = l.val; omega
  | ⟨1, _⟩ => show win0_13.index t 1 * 64 + 1 * j.val = j.val; omega

theorem read14 (t : Fin cfg0.N) (X : Vec Ideal S1x64 .f32) (j : Fin 64) :
    ((cfg0.win 14).blk t).view.read (Elt Ideal) X (ix2 (0 : Fin 1) j) = X (ix2 (0 : Fin 1) j) := by
  obtain ⟨e0, e1⟩ := idx14 t
  rw [View.read_apply]
  refine congrArg X (funext fun a => ?_)
  apply Fin.ext
  match a with
  | ⟨0, _⟩ => show win0_14.index t 0 * 1 + 1 * 0 = 0; omega
  | ⟨1, _⟩ => show win0_14.index t 1 * 64 + 1 * j.val = j.val; omega

theorem read15 (t : Fin cfg0.N) (X : Vec Ideal S64x4096 .bf16) (j : Fin 64) (d : Fin 4096) :
    ((cfg0.win 15).blk t).view.read (Elt Ideal) X (ix2 j d) = X (ix2 j d) := by
  obtain ⟨e0, e1⟩ := idx15 t
  rw [View.read_apply]
  refine congrArg X (funext fun a => ?_)
  apply Fin.ext
  match a with
  | ⟨0, _⟩ => show win0_15.index t 0 * 64 + 1 * j.val = j.val; omega
  | ⟨1, _⟩ => show win0_15.index t 1 * 4096 + 1 * d.val = d.val; omega

theorem read16 (t : Fin cfg0.N) (X : Vec Ideal S1x4096 .f32) (d : Fin 4096) :
    ((cfg0.win 16).blk t).view.read (Elt Ideal) X (ix2 (0 : Fin 1) d) = X (ix2 (0 : Fin 1) d) := by
  obtain ⟨e0, e1⟩ := idx16 t
  rw [View.read_apply]
  refine congrArg X (funext fun a => ?_)
  apply Fin.ext
  match a with
  | ⟨0, _⟩ => show win0_16.index t 0 * 1 + 1 * 0 = 0; omega
  | ⟨1, _⟩ => show win0_16.index t 1 * 4096 + 1 * d.val = d.val; omega

/-! ## The arrays the host operations wrote, as terms of the argument arrays -/

theorem v17_eq (c : Dev nD) : (V m c main_v17 : Vec Ideal S64x2112 .bf16) =
    truncf (F := Ideal) .bf16 (transpose S64x2112 [1, 0] (extractStridedSlice S2112x64 ![0, 0]
      (m ((c : Thread nD τ).loc main_arg5) : Vec Ideal S2112x4224 .f32) slices_S2112x4224_S2112x64_0_0)
      transposes_S2112x64_S64x2112_1_0) bitsLt_bf16_f32 := by
  dsimp only [Gen.V, Gen.hostOps0]
  after_results

theorem v20_eq (c : Dev nD) : (V m c main_v20 : Vec Ideal S4096x2112 .bf16) =
    truncf (F := Ideal) .bf16 (transpose S4096x2112 [1, 0] (extractStridedSlice S2112x4096 ![0, 64]
      (m ((c : Thread nD τ).loc main_arg5) : Vec Ideal S2112x4224 .f32) slices_S2112x4224_S2112x4096_0_64)
      transposes_S2112x4096_S4096x2112_1_0) bitsLt_bf16_f32 := by
  dsimp only [Gen.V, Gen.hostOps0]
  after_results

theorem v23_eq (c : Dev nD) : (V m c main_v23 : Vec Ideal S64x2112 .bf16) =
    truncf (F := Ideal) .bf16 (transpose S64x2112 [1, 0] (extractStridedSlice S2112x64 ![0, 4160]
      (m ((c : Thread nD τ).loc main_arg5) : Vec Ideal S2112x4224 .f32) slices_S2112x4224_S2112x64_0_4160)
      transposes_S2112x64_S64x2112_1_0) bitsLt_bf16_f32 := by
  dsimp only [Gen.V, Gen.hostOps0]
  after_results

theorem v25_eq (c : Dev nD) : (V m c main_v25 : Vec Ideal S2112x64 .bf16) =
    truncf (F := Ideal) .bf16 (transpose S2112x64 [1, 0]
      (m ((c : Thread nD τ).loc main_arg7) : Vec Ideal S64x2112 .f32) transposes_S64x2112_S2112x64_1_0) bitsLt_bf16_f32 := by
  dsimp only [Gen.V, Gen.hostOps0]
  after_results

theorem v27_eq (c : Dev nD) : (V m c main_v27 : Vec Ideal S64x192 .bf16) =
    truncf (F := Ideal) .bf16 (transpose S64x192 [1, 0]
      (m ((c : Thread nD τ).loc main_arg9) : Vec Ideal S192x64 .f32) transposes_S192x64_S64x192_1_0) bitsLt_bf16_f32 := by
  dsimp only [Gen.V, Gen.hostOps0]
  after_results

theorem v29_eq (c : Dev nD) : (V m c main_v29 : Vec Ideal S64x192 .bf16) =
    truncf (F := Ideal) .bf16 (transpose S64x192 [1, 0]
      (m ((c : Thread nD τ).loc main_arg11) : Vec Ideal S192x64 .f32) transposes_S192x64_S64x192_1_0) bitsLt_bf16_f32 := by
  dsimp only [Gen.V, Gen.hostOps0]
  after_results

theorem v31_eq (c : Dev nD) : (V m c main_v31 : Vec Ideal S64x64 .bf16) =
    truncf (F := Ideal) .bf16 (transpose S64x64 [1, 0]
      (m ((c : Thread nD τ).loc main_arg13) : Vec Ideal S64x64 .f32) transposes_S64x64_S64x64_1_0) bitsLt_bf16_f32 := by
  dsimp only [Gen.V, Gen.hostOps0]
  after_results

theorem v33_eq (c : Dev nD) : (V m c main_v33 : Vec Ideal S64x4096 .bf16) =
    truncf (F := Ideal) .bf16 (transpose S64x4096 [1, 0]
      (m ((c : Thread nD τ).loc main_arg15) : Vec Ideal S4096x64 .f32) transposes_S4096x64_S64x4096_1_0) bitsLt_bf16_f32 := by
  dsimp only [Gen.V, Gen.hostOps0]
  after_results

theorem v34_eq (c : Dev nD) : (V m c main_v34 : Vec Ideal S1x2112 .f32) =
    shapeCast S1x2112 (m ((c : Thread nD τ).loc main_arg6) : Vec Ideal S2112 .f32) shapeCasts_S2112_S1x2112 := by
  dsimp only [Gen.V, Gen.hostOps0]
  after_results
  rfl

theorem v35_eq (c : Dev nD) : (V m c main_v35 : Vec Ideal S1x64 .f32) =
    shapeCast S1x64 (m ((c : Thread nD τ).loc main_arg8) : Vec Ideal S64 .f32) shapeCasts_S64_S1x64 := by
  dsimp only [Gen.V, Gen.hostOps0]
  after_results
  rfl

theorem v36_eq (c : Dev nD) : (V m c main_v36 : Vec Ideal S1x192 .f32) =
    shapeCast S1x192 (m ((c : Thread nD τ).loc main_arg10) : Vec Ideal S192 .f32) shapeCasts_S192_S1x192 := by
  dsimp only [Gen.V, Gen.hostOps0]
  after_results
  rfl

theorem v37_eq (c : Dev nD) : (V m c main_v37 : Vec Ideal S1x192 .f32) =
    shapeCast S1x192 (m ((c : Thread nD τ).loc main_arg12) : Vec Ideal S192 .f32) shapeCasts_S192_S1x192 := by
  dsimp only [Gen.V, Gen.hostOps0]
  after_results
  rfl

theorem v38_eq (c : Dev nD) : (V m c main_v38 : Vec Ideal S1x64 .f32) =
    shapeCast S1x64 (m ((c : Thread nD τ).loc main_arg14) : Vec Ideal S64 .f32) shapeCasts_S64_S1x64 := by
  dsimp only [Gen.V, Gen.hostOps0]
  after_results
  rfl

theorem v39_eq (c : Dev nD) : (V m c main_v39 : Vec Ideal S1x4096 .f32) =
    shapeCast S1x4096 (m ((c : Thread nD τ).loc main_arg16) : Vec Ideal S4096 .f32) shapeCasts_S4096_S1x4096 := by
  dsimp only [Gen.V, Gen.hostOps0]
  after_results
  rfl

/-! ## Their entries -/

theorem B0_at (c : Dev nD) (t : Fin cfg0.N) (p : Fin 256) (j : Fin 64) :
    B0 m c t (ix2 p j) = m ((c : Thread nD τ).loc main_arg0) (ix2 (rowOf t p) j) := by
  refine (read0 t (V m c main_arg0) p j).trans ?_
  rw [V_main_arg0]

theorem B1_at (c : Dev nD) (t : Fin cfg0.N) (p : Fin 256) (j : Fin 1024) :
    B1 m c t (ix2 p j) = m ((c : Thread nD τ).loc main_arg1) (ix2 (rowOf t p) (colOf t j)) := by
  refine (read1 t (V m c main_arg1) p j).trans ?_
  rw [V_main_arg1]

theorem B2_at (c : Dev nD) (t : Fin cfg0.N) (p : Fin 256) (j : Fin 64) :
    B2 m c t (ix2 p j) = rwArr m c (ix2 (rowOf t p) j) := by
  exact read2 t (V m c main_v14) p j

theorem B3_at (c : Dev nD) (t : Fin cfg0.N) (j : Fin 64) (h : Fin 2112) :
    B3 m c t (ix2 j h) = m ((c : Thread nD τ).loc main_arg5) (ix2 h ⟨0 + j.val, by have := j.isLt; omega⟩) := by
  refine (read3 t (V m c main_v17) j h).trans ?_
  rw [v17_eq]
  rw [truncf_apply, transpose_ix2_apply]
  exact slice2_axis1_apply 0 _ _ h j _ rfl

theorem B4_at (c : Dev nD) (t : Fin cfg0.N) (j : Fin 1024) (h : Fin 2112) :
    B4 m c t (ix2 j h) = m ((c : Thread nD τ).loc main_arg5) (ix2 h (w1Col t j)) := by
  refine (read4 t (V m c main_v20) j h).trans ?_
  rw [v20_eq]
  rw [truncf_apply, transpose_ix2_apply]
  exact slice2_axis1_apply 64 _ _ h (colOf t j) _ rfl

theorem B5_at (c : Dev nD) (t : Fin cfg0.N) (j : Fin 64) (h : Fin 2112) :
    B5 m c t (ix2 j h) = m ((c : Thread nD τ).loc main_arg5) (ix2 h ⟨4160 + j.val, by have := j.isLt; omega⟩) := by
  refine (read5 t (V m c main_v23) j h).trans ?_
  rw [v23_eq]
  rw [truncf_apply, transpose_ix2_apply]
  exact slice2_axis1_apply 4160 _ _ h j _ rfl

theorem B6_at (c : Dev nD) (t : Fin cfg0.N) (h : Fin 2112) :
    B6 m c t (ix2 (0 : Fin 1) h) = m ((c : Thread nD τ).loc main_arg6) (ix1 h) := by
  refine (read6 t (V m c main_v34) h).trans ?_
  rw [v34_eq]
  exact shapeCast_a_1a_apply _ _ 0 h

theorem B7_at (c : Dev nD) (t : Fin cfg0.N) (h : Fin 2112) (n : Fin 64) :
    B7 m c t (ix2 h n) = m ((c : Thread nD τ).loc main_arg7) (ix2 n h) := by
  refine (read7 t (V m c main_v25) h n).trans ?_
  rw [v25_eq]
  exact transpose_ix2_apply _ _ h n

theorem B8_at (c : Dev nD) (t : Fin cfg0.N) (n : Fin 64) :
    B8 m c t (ix2 (0 : Fin 1) n) = m ((c : Thread nD τ).loc main_arg8) (ix1 n) := by
  refine (read8 t (V m c main_v35) n).trans ?_
  rw [v35_eq]
  exact shapeCast_a_1a_apply _ _ 0 n

theorem B9_at (c : Dev nD) (t : Fin cfg0.N) (n : Fin 64) (g : Fin 192) :
    B9 m c t (ix2 n g) = m ((c : Thread nD τ).loc main_arg9) (ix2 g n) := by
  refine (read9 t (V m c main_v27) n g).trans ?_
  rw [v27_eq]
  exact transpose_ix2_apply _ _ n g

theorem B10_at (c : Dev nD) (t : Fin cfg0.N) (g : Fin 192) :
    B10 m c t (ix2 (0 : Fin 1) g) = m ((c : Thread nD τ).loc main_arg10) (ix1 g) := by
  refine (read10 t (V m c main_v36) g).trans ?_
  rw [v36_eq]
  exact shapeCast_a_1a_apply _ _ 0 g

theorem B11_at (c : Dev nD) (t : Fin cfg0.N) (n : Fin 64) (g : Fin 192) :
    B11 m c t (ix2 n g) = m ((c : Thread nD τ).loc main_arg11) (ix2 g n) := by
  refine (read11 t (V m c main_v29) n g).trans ?_
  rw [v29_eq]
  exact transpose_ix2_apply _ _ n g

theorem B12_at (c : Dev nD) (t : Fin cfg0.N) (g : Fin 192) :
    B12 m c t (ix2 (0 : Fin 1) g) = m ((c : Thread nD τ).loc main_arg12) (ix1 g) := by
  refine (read12 t (V m c main_v37) g).trans ?_
  rw [v37_eq]
  exact shapeCast_a_1a_apply _ _ 0 g

theorem B13_at (c : Dev nD) (t : Fin cfg0.N) (l j : Fin 64) :
    B13 m c t (ix2 l j) = m ((c : Thread nD τ).loc main_arg13) (ix2 j l) := by
  refine (read13 t (V m c main_v31) l j).trans ?_
  rw [v31_eq]
  exact transpose_ix2_apply _ _ l j

theorem B14_at (c : Dev nD) (t : Fin cfg0.N) (j : Fin 64) :
    B14 m c t (ix2 (0 : Fin 1) j) = m ((c : Thread nD τ).loc main_arg14) (ix1 j) := by
  refine (read14 t (V m c main_v38) j).trans ?_
  rw [v38_eq]
  exact shapeCast_a_1a_apply _ _ 0 j

theorem B15_at (c : Dev nD) (t : Fin cfg0.N) (j : Fin 64) (d : Fin 4096) :
    B15 m c t (ix2 j d) = m ((c : Thread nD τ).loc main_arg15) (ix2 d j) := by
  refine (read15 t (V m c main_v33) j d).trans ?_
  rw [v33_eq]
  exact transpose_ix2_apply _ _ j d

theorem B16_at (c : Dev nD) (t : Fin cfg0.N) (d : Fin 4096) :
    B16 m c t (ix2 (0 : Fin 1) d) = m ((c : Thread nD τ).loc main_arg16) (ix1 d) := by
  refine (read16 t (V m c main_v39) d).trans ?_
  rw [v39_eq]
  exact shapeCast_a_1a_apply _ _ 0 d

end Cert.KBlocks

end
-- ==== Proof.Split.lean ====
/-
  Regrouping the first layer's contraction.  A sum over the 4224 columns of a node's row is the sum over the
  first 64 columns, plus four runs of 1024 columns, plus the last 64 columns; the order in which these six partial
  sums are added does not matter over the extended reals (addition is commutative and associative there).
-/
import Mathlib.Algebra.BigOperators.Fin
import Mathlib.Algebra.BigOperators.Intervals
import Mathlib.Data.EReal.Basic
import Mathlib.Tactic.Abel

noncomputable section

open scoped BigOperators

namespace Cert.Split

variable {M : Type*} [AddCommMonoid M]

/-- A function on the first N naturals, extended by zero. -/
def ext0 {N : Nat} (f : Fin N → M) (n : Nat) : M := if h : n < N then f ⟨n, h⟩ else 0

theorem sum_fin_eq_range {N : Nat} (f : Fin N → M) : ∑ j : Fin N, f j = ∑ n ∈ Finset.range N, ext0 f n := by
  rw [← Fin.sum_univ_eq_sum_range (ext0 f) N]
  refine Finset.sum_congr rfl fun j _ => ?_
  unfold ext0
  rw [dif_pos j.isLt]

/-- A run of L consecutive columns starting at column o, as a sum over the run's own index. -/
theorem run_eq {N : Nat} (f : Fin N → M) (o L : Nat) (hL : o + L ≤ N) :
    ∑ x ∈ Finset.range L, ext0 f (o + x)
      = ∑ j : Fin L, f ⟨o + j.val, Nat.lt_of_lt_of_le (Nat.add_lt_add_left j.isLt o) hL⟩ := by
  rw [← Fin.sum_univ_eq_sum_range (fun x => ext0 f (o + x)) L]
  refine Finset.sum_congr rfl fun j _ => ?_
  unfold ext0
  rw [dif_pos (Nat.lt_of_lt_of_le (Nat.add_lt_add_left j.isLt o) hL)]

/-- The first 4224 naturals cut as 64 | 1024 | 1024 | 1024 | 1024 | 64, the six partial sums added in the order
    (first + last) + run 0 + run 1 + run 2 + run 3. -/
theorem range_4224 (g : Nat → M) :
    ∑ n ∈ Finset.range 4224, g n
      = ((((∑ x ∈ Finset.range 64, g (0 + x) + ∑ x ∈ Finset.range 64, g (4160 + x))
          + ∑ x ∈ Finset.range 1024, g (64 + x))
          + ∑ x ∈ Finset.range 1024, g (1088 + x))
          + ∑ x ∈ Finset.range 1024, g (2112 + x))
          + ∑ x ∈ Finset.range 1024, g (3136 + x) := by
  rw [show (4224 : Nat) = 0 + 64 + 1024 + 1024 + 1024 + 1024 + 64 from rfl]
  rw [Finset.sum_range_add, Finset.sum_range_add, Finset.sum_range_add, Finset.sum_range_add, Finset.sum_range_add,
    Finset.sum_range_add]
  rw [Finset.range_zero, Finset.sum_empty, zero_add]
  rw [show (0 + 64 + 1024 + 1024 + 1024 + 1024 : Nat) = 4160 from rfl, show (0 + 64 + 1024 + 1024 + 1024 : Nat) = 3136 from rfl,
    show (0 + 64 + 1024 + 1024 : Nat) = 2112 from rfl, show (0 + 64 + 1024 : Nat) = 1088 from rfl,
    show (0 + 64 : Nat) = 64 from rfl]
  abel

/-- The same for a function on the 4224 columns. -/
theorem sum_4224 (f : Fin 4224 → M) :
    ∑ j : Fin 4224, f j
      = ((((∑ j : Fin 64, f ⟨0 + j.val, by have := j.isLt; omega⟩
            + ∑ j : Fin 64, f ⟨4160 + j.val, by have := j.isLt; omega⟩)
          + ∑ j : Fin 1024, f ⟨64 + j.val, by have := j.isLt; omega⟩)
          + ∑ j : Fin 1024, f ⟨1088 + j.val, by have := j.isLt; omega⟩)
          + ∑ j : Fin 1024, f ⟨2112 + j.val, by have := j.isLt; omega⟩)
          + ∑ j : Fin 1024, f ⟨3136 + j.val, by have := j.isLt; omega⟩ := by
  rw [sum_fin_eq_range f, range_4224 (ext0 f)]
  rw [run_eq f 0 64 (by omega), run_eq f 64 1024 (by omega), run_eq f 1088 1024 (by omega),
    run_eq f 2112 1024 (by omega), run_eq f 3136 1024 (by omega), run_eq f 4160 64 (by omega)]

/-- A run's entry through the zero extension. -/
theorem ext0_run {N : Nat} (f : Fin N → M) (n : Nat) (hn : n < N) : ext0 f n = f ⟨n, hn⟩ := by
  unfold ext0
  rw [dif_pos hn]

/-- The same, the four middle runs gathered into one sum over the run's number. -/
theorem sum_4224_runs (f : Fin 4224 → M) :
    ∑ j : Fin 4224, f j
      = (∑ j : Fin 64, f ⟨0 + j.val, by have := j.isLt; omega⟩
            + ∑ j : Fin 64, f ⟨4160 + j.val, by have := j.isLt; omega⟩)
          + ∑ s ∈ Finset.range 4, ∑ j : Fin 1024, ext0 f (64 + (1024 * s + j.val)) := by
  rw [sum_4224 f]
  rw [Finset.sum_range_succ, Finset.sum_range_succ, Finset.sum_range_succ, Finset.sum_range_succ, Finset.sum_range_zero,
    zero_add]
  have e0 : ∀ j : Fin 1024, ext0 f (64 + (1024 * 0 + j.val)) = f ⟨64 + j.val, by have := j.isLt; omega⟩ := fun j => by
    rw [ext0_run f _ (by have := j.isLt; omega)]; exact congrArg f (Fin.ext (by simp))
  have e1 : ∀ j : Fin 1024, ext0 f (64 + (1024 * 1 + j.val)) = f ⟨1088 + j.val, by have := j.isLt; omega⟩ := fun j => by
    rw [ext0_run f _ (by have := j.isLt; omega)]; exact congrArg f (Fin.ext (by simp; omega))
  have e2 : ∀ j : Fin 1024, ext0 f (64 + (1024 * 2 + j.val)) = f ⟨2112 + j.val, by have := j.isLt; omega⟩ := fun j => by
    rw [ext0_run f _ (by have := j.isLt; omega)]; exact congrArg f (Fin.ext (by simp; omega))
  have e3 : ∀ j : Fin 1024, ext0 f (64 + (1024 * 3 + j.val)) = f ⟨3136 + j.val, by have := j.isLt; omega⟩ := fun j => by
    rw [ext0_run f _ (by have := j.isLt; omega)]; exact congrArg f (Fin.ext (by simp; omega))
  simp only [e0, e1, e2, e3]
  abel

end Cert.Split

end
-- ==== Proof.PreSplit.lean ====
/-
  The first layer's contraction, regrouped as the kernel accumulates it: the memory span and the walk-embedding
  span first, then the four runs of 1024 origin–destination columns.
-/
import proofs.«161436_j58033598104174_1_alg».proof.Proof.Spec
import proofs.«161436_j58033598104174_1_alg».proof.Proof.Split

noncomputable section

open scoped BigOperators

namespace Cert.PreSplit

open Idealize.ShloMosaic Idealize.ShloMosaic.ValueIdx Cert.Spec

/-- One product of the s-th origin–destination run (zero for a run number past the fourth: never used). -/
def odTerm (od : Mat 4096 4096) (W1 : Mat 2112 4224) (r : Fin 4096) (h : Fin 2112) (s : Nat) (j : Fin 1024) : EReal :=
  if hs : s < 4 then
    od (ix2 r ⟨1024 * s + j.val, by have := j.isLt; omega⟩) * W1 (ix2 h ⟨64 + (1024 * s + j.val), by have := j.isLt; omega⟩)
  else 0

theorem cat_first (mem : Mat 4096 64) (od : Mat 4096 4096) (rw : Mat 4096 64) (r : Fin 4096) (j : Fin 64) :
    cat3At (N := 4224) mem od rw r ⟨0 + j.val, by have := j.isLt; omega⟩ = mem (ix2 r j) := by
  unfold cat3At
  rw [dif_pos (show (0 + j.val) < 64 by have := j.isLt; omega)]
  exact congrArg mem (congrArg (ix2 r) (Fin.ext (Nat.zero_add _)))

theorem cat_last (mem : Mat 4096 64) (od : Mat 4096 4096) (rw : Mat 4096 64) (r : Fin 4096) (j : Fin 64) :
    cat3At (N := 4224) mem od rw r ⟨4160 + j.val, by have := j.isLt; omega⟩ = rw (ix2 r j) := by
  unfold cat3At
  rw [dif_neg (show ¬(4160 + j.val) < 64 by omega), dif_neg (show ¬(4160 + j.val) - 64 < 4096 by omega),
    dif_pos (show (4160 + j.val) - 64 - 4096 < 64 by have := j.isLt; omega)]
  exact congrArg rw (congrArg (ix2 r) (Fin.ext (by show 4160 + j.val - 64 - 4096 = j.val; omega)))

theorem cat_mid (mem : Mat 4096 64) (od : Mat 4096 4096) (rw : Mat 4096 64) (r : Fin 4096) (s : Nat) (hs : s < 4)
    (j : Fin 1024) :
    cat3At (N := 4224) mem od rw r ⟨64 + (1024 * s + j.val), by have := j.isLt; omega⟩
      = od (ix2 r ⟨1024 * s + j.val, by have := j.isLt; omega⟩) := by
  unfold cat3At
  rw [dif_neg (show ¬(64 + (1024 * s + j.val)) < 64 by omega),
    dif_pos (show (64 + (1024 * s + j.val)) - 64 < 4096 by have := j.isLt; omega)]
  exact congrArg od (congrArg (ix2 r) (Fin.ext (by show 64 + (1024 * s + j.val) - 64 = 1024 * s + j.val; omega)))

/-- The contraction over 4224 columns as (memory span + walk span) + the four origin–destination runs. -/
theorem pre1_split (mem : Mat 4096 64) (od : Mat 4096 4096) (rw : Mat 4096 64) (W1 : Mat 2112 4224)
    (r : Fin 4096) (h : Fin 2112) :
    pre1 mem od rw W1 r h
      = (∑ j : Fin 64, mem (ix2 r j) * W1 (ix2 h ⟨0 + j.val, by have := j.isLt; omega⟩)
          + ∑ j : Fin 64, rw (ix2 r j) * W1 (ix2 h ⟨4160 + j.val, by have := j.isLt; omega⟩))
        + ∑ s ∈ Finset.range 4, ∑ j : Fin 1024, odTerm od W1 r h s j := by
  unfold pre1
  rw [Split.sum_4224_runs]
  refine congrArg₂ (· + ·) (congrArg₂ (· + ·) ?_ ?_) ?_
  · refine Finset.sum_congr rfl fun j _ => ?_
    rw [cat_first]
  · refine Finset.sum_congr rfl fun j _ => ?_
    rw [cat_last]
  · refine Finset.sum_congr rfl fun s hs => Finset.sum_congr rfl fun j _ => ?_
    have hs4 : s < 4 := Finset.mem_range.mp hs
    rw [Split.ext0_run _ _ (by have := j.isLt; omega)]
    unfold odTerm
    rw [dif_pos hs4, cat_mid mem od rw r s hs4 j]

end Cert.PreSplit

end
-- ==== Proof.KFinal.lean ====
/-
  The kernel's result array, entry by entry.

  Inside one row block the accumulator after the last of its four points is the start value (memory span plus
  walk span of the first contraction) plus the four origin–destination runs: the first contraction of every
  node of the block.  The output block written at that last point is the network's tail of the accumulator rows
  and the memory rows; the sixteen blocks written cover the result array.
-/
import proofs.«161436_j58033598104174_1_alg».proof.Proof.Gen.KernelIdeal.Value
import proofs.«161436_j58033598104174_1_alg».proof.Proof.KPieces
import proofs.«161436_j58033598104174_1_alg».proof.Proof.KPay
import proofs.«161436_j58033598104174_1_alg».proof.Proof.KBlocks
import proofs.«161436_j58033598104174_1_alg».proof.Proof.Spec
import proofs.«161436_j58033598104174_1_alg».proof.Proof.PreSplit
import Idealize.ShloMosaic.Lib.Pipeline.Value

set_option maxRecDepth 16384

noncomputable section

open scoped BigOperators

namespace Cert.KFinal

open Idealize.ShloMosaic Idealize.ShloMosaic.ValueIdx Idealize.ShloMosaic.TcCoe Idealize.SL.Sem
open Idealize.ShloMosaic.Pipeline (Dat)
open Cert.KernelIdeal Cert.KernelIdeal.Gen Cert.KBlocks

variable (m : (ℓ : Loc nD τ sig) → Buf (Elt Ideal) ℓ)

/-! ## One point's effect on the accumulator -/

/-- At a row block's first point the accumulator is the update of the start value, whatever it held. -/
theorem sc_first (c : Dev nD) (n : Nat) (hb : n < cfg0.N) (h0 : n % 4 = 0) (acc : Vec Ideal S256x2112 .f32) :
    Cert.KernelIdeal.Value.scAt0_0 m c n hb acc
      = k0_pay2 (B1 m c ⟨n, hb⟩) (k0_pay1 (B0 m c ⟨n, hb⟩) (B2 m c ⟨n, hb⟩) (B3 m c ⟨n, hb⟩) (B5 m c ⟨n, hb⟩)) (B4 m c ⟨n, hb⟩) := by
  unfold Cert.KernelIdeal.Value.scAt0_0
  rw [dif_pos h0, dif_neg (show ¬n % 4 = 3 by omega)]
  exact Cert.KPieces.scratch_first (F := Ideal) ..

/-- At the other points it is the update of what the point before left. -/
theorem sc_step (c : Dev nD) (n : Nat) (hb : n < cfg0.N) (h0 : ¬n % 4 = 0) (acc : Vec Ideal S256x2112 .f32) :
    Cert.KernelIdeal.Value.scAt0_0 m c n hb acc = k0_pay2 (B1 m c ⟨n, hb⟩) acc (B4 m c ⟨n, hb⟩) := by
  unfold Cert.KernelIdeal.Value.scAt0_0
  rw [dif_neg h0]
  by_cases h1 : n % 4 = 3
  · rw [dif_pos h1]
    exact Cert.KPieces.scratch_last (F := Ideal) ..
  · rw [dif_neg h1]
    exact Cert.KPieces.scratch_mid (F := Ideal) ..

/-! ## The accumulator after a row block's last point -/

/-- The start value of the row block whose first point is t0: memory span plus walk span. -/
def Zv (c : Dev nD) (t0 : Fin cfg0.N) : S256x2112.Idx → EReal :=
  k0_pay1 (F := Ideal) (B0 m c t0) (B2 m c t0) (B3 m c t0) (B5 m c t0)

/-- Point n's addend: its origin–destination run (zero past the grid: never used). -/
def Mv (c : Dev nD) (n : Nat) (i : S256x2112.Idx) : EReal :=
  if hn : n < cfg0.N then ∑ j : Fin 1024, B1 m c ⟨n, hn⟩ (ix2 (i 0) j) * B4 m c ⟨n, hn⟩ (ix2 j (i 1)) else 0

/-- After the last of a row block's four points the accumulator is the start value plus the four runs. -/
theorem acc_last (c : Dev nD) (t : Fin cfg0.N) (h3 : t.val % 4 = 3) (i : S256x2112.Idx) :
    (outsAt0 m c t.val t.isLt).2 i
      = Zv m c ⟨4 * (t.val / 4), by have := t.isLt; omega⟩ i + ∑ s ∈ Finset.range 4, Mv m c (4 * (t.val / 4) + s) i := by
  have hN : cfg0.N = 64 := N_0
  have hb : 4 * (t.val / 4) < cfg0.N := by have := t.isLt; omega
  rw [Cert.KernelIdeal.Value.soutsAt0_0_eq m c t]
  have key := Pipeline.accAt_add_apply (N := cfg0.N)
    (fun n h => Cert.KernelIdeal.Value.scAt0_0 m c n h (VS0_0.read (Elt Ideal) VS0_0.junk))
    (Cert.KernelIdeal.Value.scAt0_0 m c) (Zv m c ⟨4 * (t.val / 4), hb⟩) (Mv m c) (4 * (t.val / 4)) 3
    (fun h i => by
      obtain ⟨p, q, rfl⟩ : ∃ (p : Fin 256) (q : Fin 2112), i = ix2 p q := ⟨i 0, i 1, eq_ix2 i⟩
      rw [sc_first m c _ h (by omega), Cert.KPay.pay2_at]
      unfold Zv Mv
      rw [dif_pos h])
    (fun n h acc i hlt hle => by
      obtain ⟨p, q, rfl⟩ : ∃ (p : Fin 256) (q : Fin 2112), i = ix2 p q := ⟨i 0, i 1, eq_ix2 i⟩
      rw [sc_step m c n h (by omega) acc, Cert.KPay.pay2_at]
      unfold Mv
      rw [dif_pos h])
    (t.val % 4) (by omega) (by have := t.isLt; omega) i
  rw [key, show t.val % 4 + 1 = 4 by omega]

/-! ## The argument arrays, as the specification's matrices and vectors -/

abbrev aMem (c : Dev nD) : Spec.Mat 4096 64 := m ((c : Thread nD τ).loc main_arg0)
abbrev aOd (c : Dev nD) : Spec.Mat 4096 4096 := m ((c : Thread nD τ).loc main_arg1)
abbrev aW1 (c : Dev nD) : Spec.Mat 2112 4224 := m ((c : Thread nD τ).loc main_arg5)
abbrev aB1 (c : Dev nD) : Spec.Vc 2112 := m ((c : Thread nD τ).loc main_arg6)
abbrev aW2 (c : Dev nD) : Spec.Mat 64 2112 := m ((c : Thread nD τ).loc main_arg7)
abbrev aB2 (c : Dev nD) : Spec.Vc 64 := m ((c : Thread nD τ).loc main_arg8)
abbrev aWi (c : Dev nD) : Spec.Mat 192 64 := m ((c : Thread nD τ).loc main_arg9)
abbrev aBi (c : Dev nD) : Spec.Vc 192 := m ((c : Thread nD τ).loc main_arg10)
abbrev aWh (c : Dev nD) : Spec.Mat 192 64 := m ((c : Thread nD τ).loc main_arg11)
abbrev aBh (c : Dev nD) : Spec.Vc 192 := m ((c : Thread nD τ).loc main_arg12)
abbrev aWp1 (c : Dev nD) : Spec.Mat 64 64 := m ((c : Thread nD τ).loc main_arg13)
abbrev aBp1 (c : Dev nD) : Spec.Vc 64 := m ((c : Thread nD τ).loc main_arg14)
abbrev aWp2 (c : Dev nD) : Spec.Mat 4096 64 := m ((c : Thread nD τ).loc main_arg15)
abbrev aBp2 (c : Dev nD) : Spec.Vc 4096 := m ((c : Thread nD τ).loc main_arg16)

/-- After a row block's last point the accumulator's row p is the first contraction of the block's p-th node. -/
theorem acc_spec (c : Dev nD) (t : Fin cfg0.N) (h3 : t.val % 4 = 3) (p : Fin 256) (h : Fin 2112) :
    (outsAt0 m c t.val t.isLt).2 (ix2 p h)
      = Spec.pre1 (aMem m c) (aOd m c) (rwArr m c) (aW1 m c) (rowOf t p) h := by
  have hN : cfg0.N = 64 := N_0
  have hb : 4 * (t.val / 4) < cfg0.N := by have := t.isLt; omega
  have hrow : rowOf (⟨4 * (t.val / 4), hb⟩ : Fin cfg0.N) p = rowOf t p :=
    Fin.ext (by show 256 * (4 * (t.val / 4) / 4) + p.val = 256 * (t.val / 4) + p.val; omega)
  rw [acc_last m c t h3, Cert.PreSplit.pre1_split]
  refine congrArg₂ (· + ·) ?_ ?_
  · unfold Zv
    rw [Cert.KPay.pay1_at]
    refine congrArg₂ (· + ·) (Finset.sum_congr rfl fun j _ => ?_) (Finset.sum_congr rfl fun j _ => ?_)
    · rw [B0_at, B3_at, hrow]
    · rw [B2_at, B5_at, hrow]
  · refine Finset.sum_congr rfl fun s hs => ?_
    have hs4 : s < 4 := Finset.mem_range.mp hs
    have hn : 4 * (t.val / 4) + s < cfg0.N := by have := t.isLt; omega
    unfold Mv
    rw [dif_pos hn]
    refine Finset.sum_congr rfl fun j _ => ?_
    show B1 m c ⟨_, hn⟩ (ix2 p j) * B4 m c ⟨_, hn⟩ (ix2 j h) = _
    rw [B1_at, B4_at]
    unfold Cert.PreSplit.odTerm
    rw [dif_pos hs4]
    have e1 : rowOf (⟨4 * (t.val / 4) + s, hn⟩ : Fin cfg0.N) p = rowOf t p :=
      Fin.ext (by show 256 * ((4 * (t.val / 4) + s) / 4) + p.val = 256 * (t.val / 4) + p.val; omega)
    have e2 : colOf (⟨4 * (t.val / 4) + s, hn⟩ : Fin cfg0.N) j = ⟨1024 * s + j.val, by have := j.isLt; omega⟩ :=
      Fin.ext (by show 1024 * ((4 * (t.val / 4) + s) % 4) + j.val = 1024 * s + j.val; omega)
    have e3 : w1Col (⟨4 * (t.val / 4) + s, hn⟩ : Fin cfg0.N) j = ⟨64 + (1024 * s + j.val), by have := j.isLt; omega⟩ :=
      Fin.ext (by show 64 + (1024 * ((4 * (t.val / 4) + s) % 4) + j.val) = 64 + (1024 * s + j.val); omega)
    rw [e1, e2, e3]

/-! ## The output block written at a row block's last point -/

/-- It is the tail of the accumulator that point leaves and of the point's memory block. -/
theorem out_block (c : Dev nD) (t : Fin cfg0.N) (h3 : t.val % 4 = 3) :
    (outsAt0 m c t.val t.isLt).1
      = k0_pay3 (F := Ideal) (B0 m c t) (k0_pay6 ((outsAt0 m c t.val t.isLt).2) (B6 m c t) (B7 m c t) (B8 m c t) (B9 m c t) (B10 m c t))
        (k0_pay7 ((outsAt0 m c t.val t.isLt).2) (B6 m c t) (B7 m c t) (B8 m c t) (B9 m c t) (B10 m c t))
        (k0_pay8 ((outsAt0 m c t.val t.isLt).2) (B6 m c t) (B7 m c t) (B8 m c t) (B9 m c t) (B10 m c t))
        (k0_pay9 (B0 m c t) (B11 m c t) (B12 m c t)) (k0_pay10 (B0 m c t) (B11 m c t) (B12 m c t))
        (k0_pay11 (B0 m c t) (B11 m c t) (B12 m c t)) (B13 m c t) (B14 m c t) (B15 m c t) (B16 m c t) := by
  have h0 : ¬t.val % 4 = 0 := by omega
  rw [outsAt0_C m c t h0 h3]
  dsimp only
  rw [Cert.KPieces.out_last, Cert.KPieces.scratch_last]

/-- Entry (p, d) of that block: the network's output for the block's p-th node and destination d. -/
theorem out_entry (c : Dev nD) (t : Fin cfg0.N) (h3 : t.val % 4 = 3) (p : Fin 256) (d : Fin 4096) :
    (outsAt0 m c t.val t.isLt).1 (ix2 p d)
      = Spec.out (fun h => Spec.pre1 (aMem m c) (aOd m c) (rwArr m c) (aW1 m c) (rowOf t p) h)
          (fun l => aMem m c (ix2 (rowOf t p) l)) (aB1 m c) (aW2 m c) (aB2 m c) (aWi m c) (aBi m c) (aWh m c) (aBh m c) (aWp1 m c) (aBp1 m c) (aWp2 m c) (aBp2 m c) d := by
  rw [out_block m c t h3]
  rw [Cert.KPay.out_at (B0 m c t) ((outsAt0 m c t.val t.isLt).2) (B6 m c t) (B7 m c t) (B8 m c t) (B9 m c t) (B10 m c t) (B11 m c t)
    (B12 m c t) (B13 m c t) (B14 m c t) (B15 m c t) (B16 m c t) (aB1 m c) (aW2 m c) (aB2 m c) (aWi m c) (aBi m c) (aWh m c) (aBh m c) (aWp1 m c) (aBp1 m c) (aWp2 m c) (aBp2 m c)
    (fun h => B6_at m c t h) (fun h n => B7_at m c t h n) (fun n => B8_at m c t n) (fun n g => B9_at m c t n g)
    (fun g => B10_at m c t g) (fun n g => B11_at m c t n g) (fun g => B12_at m c t g) (fun l j => B13_at m c t l j)
    (fun j => B14_at m c t j) (fun j e => B15_at m c t j e) (fun e => B16_at m c t e) p d]
  have ea : (fun h => (outsAt0 m c t.val t.isLt).2 (ix2 p h))
      = fun h => Spec.pre1 (aMem m c) (aOd m c) (rwArr m c) (aW1 m c) (rowOf t p) h :=
    funext fun h => acc_spec m c t h3 p h
  have eb : (fun l => B0 m c t (ix2 p l)) = fun l => aMem m c (ix2 (rowOf t p) l) :=
    funext fun l => B0_at m c t p l
  rw [ea, eb]

/-! ## The result array -/

/-- For node r and destination d: the network's tail of node r's first contraction and memory row. -/
def G (c : Dev nD) : S4096x4096.Idx → EReal := fun idx =>
  Spec.out (fun h => Spec.pre1 (aMem m c) (aOd m c) (rwArr m c) (aW1 m c) (idx 0) h)
    (fun l => aMem m c (ix2 (idx 0) l)) (aB1 m c) (aW2 m c) (aB2 m c) (aWi m c) (aBi m c) (aWh m c) (aBh m c) (aWp1 m c) (aBp1 m c) (aWp2 m c) (aBp2 m c) (idx 1)

/-- The output window's block index at point t: row block t / 4, the one column block. -/
theorem idx17 : ∀ t : Fin cfg0.N, win0_17.index t (0 : Fin 2) = t.val / 4 ∧ win0_17.index t (1 : Fin 2) = 0 :=
  (by decide +kernel : ∀ t : Fin grid0.N, _)

/-- What a row block's last point writes back is that block of the result array. -/
theorem flushed_eq (c : Dev nD) (t : Fin cfg0.N) (hf : (cfg0.win 17).flush t = true) :
    (dats m 0 c).flushed 17 t = ((cfg0.win 17).blk t).view.read (Elt Ideal) (G m c) := by
  have h3 : t.val % 4 = 3 := (flush0_17 t).mp hf
  rw [Cert.KernelIdeal.Value.flushed17]
  obtain ⟨e0, e1⟩ := idx17 t
  show (fun j : S256x4096.Idx => (outsAt0 m c t.val t.isLt).1 j)
    = fun j : S256x4096.Idx => G m c (((cfg0.win 17).blk t).view.emb j)
  funext j
  have hemb : ((cfg0.win 17).blk t).view.emb j = ix2 (rowOf t (j 0)) (j 1) := by
    funext a; apply Fin.ext
    match a with
    | ⟨0, _⟩ => show win0_17.index t (0 : Fin 2) * 256 + 1 * (j 0).val = 256 * (t.val / 4) + (j 0).val; omega
    | ⟨1, _⟩ => show win0_17.index t (1 : Fin 2) * 4096 + 1 * (j 1).val = (j 1).val; omega
  rw [hemb]
  refine (congrArg (outsAt0 m c t.val t.isLt).1 (eq_ix2 (n0 := 256) (n1 := 4096) j)).trans ?_
  exact (out_entry m c t h3 (j 0) (j 1)).trans rfl

/-- An index of the result array is in point t's block iff each coordinate is in the block's range. -/
theorem mem_blk17 (t : Fin cfg0.N) (i : S4096x4096.Idx) :
    i ∈ ((cfg0.win 17).blk t).view.set ↔ ∀ a : Fin 2, win0_17.index t a * S256x4096.size a ≤ (i a).val ∧ (i a).val < win0_17.index t a * S256x4096.size a + S256x4096.size a := by
  show i ∈ ((View.whole main_v40).slice (win0_17.rect t)).set ↔ _
  rw [View.set_slice_whole, Rect.mem_set_unit]
  exact Iff.rfl

/-- The sixteen blocks written cover the result array, so it ends as G. -/
theorem final (c : Dev nD) : (dats m 0 c).arrAt 17 cfg0.N = G m c :=
  (dats m 0 c).arrAt_eq_of_cover 17 (G m c) (fun t hf => flushed_eq m c t hf) fun i => by
    have hN : cfg0.N = 64 := N_0
    have hi0 : (i 0).val < 4096 := (i 0).isLt
    have hi1 : (i 1).val < 4096 := (i 1).isLt
    have ht : 4 * ((i 0).val / 256) + 3 < cfg0.N := by omega
    refine ⟨⟨4 * ((i 0).val / 256) + 3, ht⟩, (flush0_17 _).mpr (by show (4 * ((i 0).val / 256) + 3) % 4 = 3; omega), ?_⟩
    rw [mem_blk17]
    obtain ⟨e0, e1⟩ := idx17 ⟨4 * ((i 0).val / 256) + 3, ht⟩
    intro a
    match a with
    | ⟨0, _⟩ =>
      show win0_17.index ⟨4 * ((i 0).val / 256) + 3, ht⟩ (0 : Fin 2) * 256 ≤ (i 0).val ∧ (i 0).val < win0_17.index ⟨4 * ((i 0).val / 256) + 3, ht⟩ (0 : Fin 2) * 256 + 256
      rw [e0]
      show (4 * ((i 0).val / 256) + 3) / 4 * 256 ≤ (i 0).val ∧ (i 0).val < (4 * ((i 0).val / 256) + 3) / 4 * 256 + 256
      omega
    | ⟨1, _⟩ =>
      show win0_17.index ⟨4 * ((i 0).val / 256) + 3, ht⟩ (1 : Fin 2) * 4096 ≤ (i 1).val ∧ (i 1).val < win0_17.index ⟨4 * ((i 0).val / 256) + 3, ht⟩ (1 : Fin 2) * 4096 + 4096
      rw [e1]
      omega

end Cert.KFinal

end
-- ==== Proof.LibConcat.lean ====
/-
  Matrices set side by side along their columns, read at an entry: entry (r, k) of the concatenation is the entry
  of the piece whose column span holds k, at the column counted from that piece's first.
-/
import Idealize.ShloMosaic.PureOps.Ideal
import Idealize.ShloMosaic.Lib.ValueIdx
import Idealize.ShloMosaic.Lib.Pipeline.Value
import proofs.«161436_j58033598104174_1_alg».proof.Proof.Spec

noncomputable section

namespace Cert.LibConcat

open Idealize.ShloMosaic Idealize.ShloMosaic.ValueIdx

/-- Three matrices side by side, at entry (r, k). -/
theorem concat3_at {R A B C N : Nat}
    (h : Shape.Concatenates [(⟨2, ![R, A]⟩ : Shape), (⟨2, ![R, B]⟩ : Shape), (⟨2, ![R, C]⟩ : Shape)] (⟨2, ![R, N]⟩ : Shape) (1 : Fin 2))
    (a : Cert.Spec.Mat R A) (b : Cert.Spec.Mat R B) (c : Cert.Spec.Mat R C) (r : Fin R) (k : Fin N) :
    concatenate (⟨2, ![R, N]⟩ : Shape) (1 : Fin 2)
        [⟨(⟨2, ![R, A]⟩ : Shape), a⟩, ⟨(⟨2, ![R, B]⟩ : Shape), b⟩, ⟨(⟨2, ![R, C]⟩ : Shape), c⟩] h (ix2 r k)
      = Cert.Spec.cat3At a b c r k := by
  have hN : A + (B + C) = N := by
    have h3 := h.2.2
    simpa using h3
  unfold Cert.Spec.cat3At
  by_cases hk : k.val < A
  · rw [dif_pos hk]
    refine concatenate_apply_piece (t := (⟨2, ![R, N]⟩ : Shape)) (1 : Fin 2)
        [⟨(⟨2, ![R, A]⟩ : Shape), a⟩, ⟨(⟨2, ![R, B]⟩ : Shape), b⟩, ⟨(⟨2, ![R, C]⟩ : Shape), c⟩]
        h (ix2 r k) 0 (by simp) (⟨2, ![R, A]⟩ : Shape) a rfl rfl 0 rfl
        (ix2 r ⟨k.val, hk⟩) ?_ ?_
    · intro q hq
      match q, hq with
      | ⟨0, _⟩, _ => rfl
      | ⟨1, _⟩, hq => exact absurd rfl hq
    · show 0 + k.val = k.val
      omega
  · rw [dif_neg hk]
    by_cases hk' : k.val - A < B
    · rw [dif_pos hk']
      refine concatenate_apply_piece (t := (⟨2, ![R, N]⟩ : Shape)) (1 : Fin 2)
        [⟨(⟨2, ![R, A]⟩ : Shape), a⟩, ⟨(⟨2, ![R, B]⟩ : Shape), b⟩, ⟨(⟨2, ![R, C]⟩ : Shape), c⟩]
        h (ix2 r k) 1 (by simp) (⟨2, ![R, B]⟩ : Shape) b rfl rfl A rfl
        (ix2 r ⟨k.val - A, hk'⟩) ?_ ?_
      · intro q hq
        match q, hq with
        | ⟨0, _⟩, _ => rfl
        | ⟨1, _⟩, hq => exact absurd rfl hq
      · show A + (k.val - A) = k.val
        omega
    · have hk'' : k.val - A - B < C := by have := k.isLt; omega
      rw [dif_neg hk', dif_pos hk'']
      refine concatenate_apply_piece (t := (⟨2, ![R, N]⟩ : Shape)) (1 : Fin 2)
        [⟨(⟨2, ![R, A]⟩ : Shape), a⟩, ⟨(⟨2, ![R, B]⟩ : Shape), b⟩, ⟨(⟨2, ![R, C]⟩ : Shape), c⟩]
        h (ix2 r k) 2 (by simp) (⟨2, ![R, C]⟩ : Shape) c rfl rfl (A + B) rfl
        (ix2 r ⟨k.val - A - B, hk''⟩) ?_ ?_
      · intro q hq
        match q, hq with
        | ⟨0, _⟩, _ => rfl
        | ⟨1, _⟩, hq => exact absurd rfl hq
      · show A + B + (k.val - A - B) = k.val
        omega

end Cert.LibConcat

end
-- ==== Proof.RefSpec.lean ====
/-
  The reference program's result, read at one entry over the extended reals: for node r and destination c it is
  the network's tail applied to the first layer's contraction of node r's 4224-entry row and to node r's memory
  row.
-/
import proofs.«161436_j58033598104174_1_alg».proof.Proof.Gen.ReferenceIdeal.Read
import proofs.«161436_j58033598104174_1_alg».proof.Proof.Spec
import proofs.«161436_j58033598104174_1_alg».proof.Proof.LibDot
import proofs.«161436_j58033598104174_1_alg».proof.Proof.LibConcat
import Idealize.ShloMosaic.Lib.Pipeline.Value
import Idealize.ShloMosaic.Lib.ValueLayout

noncomputable section

open scoped BigOperators

namespace Cert.RefSpec

open Idealize.ShloMosaic Idealize.ShloMosaic.ValueIdx Cert.ReferenceIdeal Cert.ReferenceIdeal.Read

section Layers

variable (x0 : (⟨S4096x64, .f32⟩ : BufTy).Contents (Elt Ideal)) (x1 : (⟨S4096x4096, .f32⟩ : BufTy).Contents (Elt Ideal))
    (x2 : (⟨S4096x8, .i32⟩ : BufTy).Contents (Elt Ideal)) (x3 : (⟨S64x64, .f32⟩ : BufTy).Contents (Elt Ideal))
    (x4 : (⟨S64, .f32⟩ : BufTy).Contents (Elt Ideal)) (x5 : (⟨S2112x4224, .f32⟩ : BufTy).Contents (Elt Ideal))
    (x6 : (⟨S2112, .f32⟩ : BufTy).Contents (Elt Ideal)) (x7 : (⟨S64x2112, .f32⟩ : BufTy).Contents (Elt Ideal))
    (x8 : (⟨S64, .f32⟩ : BufTy).Contents (Elt Ideal)) (x9 : (⟨S192x64, .f32⟩ : BufTy).Contents (Elt Ideal))
    (x10 : (⟨S192, .f32⟩ : BufTy).Contents (Elt Ideal)) (x11 : (⟨S192x64, .f32⟩ : BufTy).Contents (Elt Ideal))
    (x12 : (⟨S192, .f32⟩ : BufTy).Contents (Elt Ideal)) (x13 : (⟨S64x64, .f32⟩ : BufTy).Contents (Elt Ideal))
    (x14 : (⟨S64, .f32⟩ : BufTy).Contents (Elt Ideal)) (x15 : (⟨S4096x64, .f32⟩ : BufTy).Contents (Elt Ideal))
    (x16 : (⟨S4096, .f32⟩ : BufTy).Contents (Elt Ideal))

/-- The first contraction: the joined row of node r against row h of the first weight matrix. -/
theorem v17_at (r : Fin 4096) (h : Fin 2112) :
    val_main_v17 (F := Ideal) x0 x1 x2 x3 x4 x5 (ix2 r h)
      = Spec.pre1 x0 x1 (val_main_v14 (F := Ideal) x0 x2 x3 x4) x5 r h := by
  rw [val_main_v17_apply]
  unfold Spec.pre1
  refine Finset.sum_congr rfl fun k _ => ?_
  rw [val_main_v16_apply]
  have el : lidx_main_v17 (ix2 r h) k = ix2 r k :=
    funext fun a => Fin.ext (by match a with | ⟨0, _⟩ => rfl | ⟨1, _⟩ => rfl)
  have er : idx_main_v16 (ridx_main_v17 (ix2 r h) k) = ix2 h k :=
    funext fun a => Fin.ext (by match a with | ⟨0, _⟩ => rfl | ⟨1, _⟩ => rfl)
  rw [el, er]
  unfold val_main_v15
  rw [Cert.LibConcat.concat3_at]

/-- The hidden activation of node r. -/
theorem v21_at (r : Fin 4096) (h : Fin 2112) :
    val_main_v21 (F := Ideal) x0 x1 x2 x3 x4 x5 x6 (ix2 r h)
      = Spec.hid (fun h => Spec.pre1 x0 x1 (val_main_v14 (F := Ideal) x0 x2 x3 x4) x5 r h) x6 h := by
  rw [val_main_v21_apply, val_main_v20_apply, v17_at, val_main_v19_apply, val_main_v18_apply,
    val_main_call0_v0_apply, val_main_call0_cst_apply]
  have eb : idx_main_v18 (idx_main_v19 (ix2 r h)) = ix1 h :=
    funext fun a => Fin.ext (by match a with | ⟨0, _⟩ => rfl)
  rw [eb]
  rfl

/-- The message of node r: the second layer. -/
theorem v26_at (r : Fin 4096) (n : Fin 64) :
    val_main_v26 (F := Ideal) x0 x1 x2 x3 x4 x5 x6 x7 x8 (ix2 r n)
      = Spec.msg (fun h => Spec.pre1 x0 x1 (val_main_v14 (F := Ideal) x0 x2 x3 x4) x5 r h) x6 x7 x8 n := by
  rw [val_main_v26_apply, val_main_v23_apply, val_main_v25_apply, val_main_v24_apply]
  have eb : idx_main_v24 (idx_main_v25 (ix2 r n)) = ix1 n := funext fun a => Fin.ext (by match a with | ⟨0, _⟩ => rfl)
  rw [eb]
  unfold Spec.msg
  refine congrArg₂ (· + ·) (Finset.sum_congr rfl fun k _ => ?_) rfl
  have el : lidx_main_v23 (ix2 r n) k = ix2 r k := funext fun a => Fin.ext (by match a with | ⟨0, _⟩ => rfl | ⟨1, _⟩ => rfl)
  have er : idx_main_v22 (ridx_main_v23 (ix2 r n) k) = ix2 n k := funext fun a => Fin.ext (by match a with | ⟨0, _⟩ => rfl | ⟨1, _⟩ => rfl)
  rw [val_main_v22_apply, el, er, v21_at]

/-- The input-side gates of node r. -/
theorem v31_at (r : Fin 4096) (g : Fin 192) :
    val_main_v31 (F := Ideal) x0 x1 x2 x3 x4 x5 x6 x7 x8 x9 x10 (ix2 r g)
      = Spec.gi (fun h => Spec.pre1 x0 x1 (val_main_v14 (F := Ideal) x0 x2 x3 x4) x5 r h) x6 x7 x8 x9 x10 g := by
  rw [val_main_v31_apply, val_main_v28_apply, val_main_v30_apply, val_main_v29_apply]
  have eb : idx_main_v29 (idx_main_v30 (ix2 r g)) = ix1 g := funext fun a => Fin.ext (by match a with | ⟨0, _⟩ => rfl)
  rw [eb]
  unfold Spec.gi
  refine congrArg₂ (· + ·) (Finset.sum_congr rfl fun k _ => ?_) rfl
  have el : lidx_main_v28 (ix2 r g) k = ix2 r k := funext fun a => Fin.ext (by match a with | ⟨0, _⟩ => rfl | ⟨1, _⟩ => rfl)
  have er : idx_main_v27 (ridx_main_v28 (ix2 r g) k) = ix2 g k := funext fun a => Fin.ext (by match a with | ⟨0, _⟩ => rfl | ⟨1, _⟩ => rfl)
  rw [val_main_v27_apply, el, er, v26_at]

/-- The state-side gates of node r. -/
theorem v36_at (r : Fin 4096) (g : Fin 192) :
    val_main_v36 (F := Ideal) x0 x11 x12 (ix2 r g) = Spec.gh (fun l => x0 (ix2 r l)) x11 x12 g := by
  rw [val_main_v36_apply, val_main_v33_apply, val_main_v35_apply, val_main_v34_apply]
  have eb : idx_main_v34 (idx_main_v35 (ix2 r g)) = ix1 g := funext fun a => Fin.ext (by match a with | ⟨0, _⟩ => rfl)
  rw [eb]
  unfold Spec.gh
  refine congrArg₂ (· + ·) (Finset.sum_congr rfl fun k _ => ?_) rfl
  have el : lidx_main_v33 (ix2 r g) k = ix2 r k := funext fun a => Fin.ext (by match a with | ⟨0, _⟩ => rfl | ⟨1, _⟩ => rfl)
  have er : idx_main_v32 (ridx_main_v33 (ix2 r g) k) = ix2 g k := funext fun a => Fin.ext (by match a with | ⟨0, _⟩ => rfl | ⟨1, _⟩ => rfl)
  rw [val_main_v32_apply, el, er]

/-- The reset gate of node r. -/
theorem v49_at (r : Fin 4096) (l : Fin 64) :
    val_main_v49 (F := Ideal) x0 x1 x2 x3 x4 x5 x6 x7 x8 x9 x10 x11 x12 (ix2 r l) = Spec.gr (fun h => Spec.pre1 x0 x1 (val_main_v14 (F := Ideal) x0 x2 x3 x4) x5 r h) (fun l => x0 (ix2 r l)) x6 x7 x8 x9 x10 x11 x12 l := by
  rw [val_main_v49_apply, val_main_v48_apply, val_main_cst_3_apply, val_main_v47_apply, val_main_v46_apply,
    val_main_cst_2_apply, val_main_v45_apply, val_main_v44_apply, val_main_v43_apply, val_main_v37_apply,
    val_main_v40_apply]
  have e0 : idx_main_v37 (ix2 r l) = ix2 r (Spec.g0 l) := funext fun a => Fin.ext (by match a with | ⟨0, _⟩ => rfl | ⟨1, _⟩ => exact (Nat.zero_add _).symm)
  have e1 : idx_main_v40 (ix2 r l) = ix2 r (Spec.g0 l) := funext fun a => Fin.ext (by match a with | ⟨0, _⟩ => rfl | ⟨1, _⟩ => exact (Nat.zero_add _).symm)
  rw [e0, e1, v31_at, v36_at]
  unfold Spec.gr Ideal.logistic
  have h1 : (Ideal.ofBits .f32 0x3F800000#32 : EReal) = 1 := Spec.oneW_eq
  show Ideal.div (Ideal.ofBits .f32 0x3F800000#32) ((Ideal.ofBits .f32 0x3F800000#32 : EReal) + Ideal.exp (-(_ + _))) = _
  rw [h1]

/-- The update gate of node r. -/
theorem v56_at (r : Fin 4096) (l : Fin 64) :
    val_main_v56 (F := Ideal) x0 x1 x2 x3 x4 x5 x6 x7 x8 x9 x10 x11 x12 (ix2 r l) = Spec.gz (fun h => Spec.pre1 x0 x1 (val_main_v14 (F := Ideal) x0 x2 x3 x4) x5 r h) (fun l => x0 (ix2 r l)) x6 x7 x8 x9 x10 x11 x12 l := by
  rw [val_main_v56_apply, val_main_v55_apply, val_main_cst_5_apply, val_main_v54_apply, val_main_v53_apply,
    val_main_cst_4_apply, val_main_v52_apply, val_main_v51_apply, val_main_v50_apply, val_main_v38_apply,
    val_main_v41_apply]
  have e0 : idx_main_v38 (ix2 r l) = ix2 r (Spec.g1 l) := funext fun a => Fin.ext (by match a with | ⟨0, _⟩ => rfl | ⟨1, _⟩ => rfl)
  have e1 : idx_main_v41 (ix2 r l) = ix2 r (Spec.g1 l) := funext fun a => Fin.ext (by match a with | ⟨0, _⟩ => rfl | ⟨1, _⟩ => rfl)
  rw [e0, e1, v31_at, v36_at]
  unfold Spec.gz Ideal.logistic
  have h1 : (Ideal.ofBits .f32 0x3F800000#32 : EReal) = 1 := Spec.oneW_eq
  show Ideal.div (Ideal.ofBits .f32 0x3F800000#32) ((Ideal.ofBits .f32 0x3F800000#32 : EReal) + Ideal.exp (-(_ + _))) = _
  rw [h1]

/-- The candidate state of node r. -/
theorem v59_at (r : Fin 4096) (l : Fin 64) :
    val_main_v59 (F := Ideal) x0 x1 x2 x3 x4 x5 x6 x7 x8 x9 x10 x11 x12 (ix2 r l) = Spec.gn (fun h => Spec.pre1 x0 x1 (val_main_v14 (F := Ideal) x0 x2 x3 x4) x5 r h) (fun l => x0 (ix2 r l)) x6 x7 x8 x9 x10 x11 x12 l := by
  rw [val_main_v59_apply, val_main_v58_apply, val_main_v57_apply, val_main_v39_apply, val_main_v42_apply, v49_at]
  have e0 : idx_main_v39 (ix2 r l) = ix2 r (Spec.g2 l) := funext fun a => Fin.ext (by match a with | ⟨0, _⟩ => rfl | ⟨1, _⟩ => rfl)
  have e1 : idx_main_v42 (ix2 r l) = ix2 r (Spec.g2 l) := funext fun a => Fin.ext (by match a with | ⟨0, _⟩ => rfl | ⟨1, _⟩ => rfl)
  rw [e0, e1, v31_at, v36_at]
  rfl

/-- The updated memory row of node r. -/
theorem v64_at (r : Fin 4096) (l : Fin 64) :
    val_main_v64 (F := Ideal) x0 x1 x2 x3 x4 x5 x6 x7 x8 x9 x10 x11 x12 (ix2 r l) = Spec.upd (fun h => Spec.pre1 x0 x1 (val_main_v14 (F := Ideal) x0 x2 x3 x4) x5 r h) (fun l => x0 (ix2 r l)) x6 x7 x8 x9 x10 x11 x12 l := by
  rw [val_main_v64_apply, val_main_v62_apply, val_main_v63_apply, val_main_v61_apply, val_main_v60_apply,
    val_main_cst_6_apply, v56_at, v59_at]
  rfl

/-- The first prediction layer of node r. -/
theorem v70_at (r : Fin 4096) (j : Fin 64) :
    val_main_v70 (F := Ideal) x0 x1 x2 x3 x4 x5 x6 x7 x8 x9 x10 x11 x12 x13 x14 (ix2 r j) = Spec.pr (fun h => Spec.pre1 x0 x1 (val_main_v14 (F := Ideal) x0 x2 x3 x4) x5 r h) (fun l => x0 (ix2 r l)) x6 x7 x8 x9 x10 x11 x12 x13 x14 j := by
  rw [val_main_v70_apply, val_main_v69_apply, val_main_v66_apply, val_main_v68_apply, val_main_v67_apply,
    val_main_call1_v0_apply, val_main_call1_cst_apply]
  have eb : idx_main_v67 (idx_main_v68 (ix2 r j)) = ix1 j := funext fun a => Fin.ext (by match a with | ⟨0, _⟩ => rfl)
  rw [eb]
  unfold Spec.pr
  refine congrArg₂ max (congrArg₂ (· + ·) (Finset.sum_congr rfl fun k _ => ?_) rfl) rfl
  have el : lidx_main_v66 (ix2 r j) k = ix2 r k := funext fun a => Fin.ext (by match a with | ⟨0, _⟩ => rfl | ⟨1, _⟩ => rfl)
  have er : idx_main_v65 (ridx_main_v66 (ix2 r j) k) = ix2 j k := funext fun a => Fin.ext (by match a with | ⟨0, _⟩ => rfl | ⟨1, _⟩ => rfl)
  rw [val_main_v65_apply, el, er, v64_at]

/-- The predicted row of node r. -/
theorem v75_at (r : Fin 4096) (c : Fin 4096) :
    val_main_v75 (F := Ideal) x0 x1 x2 x3 x4 x5 x6 x7 x8 x9 x10 x11 x12 x13 x14 x15 x16 (ix2 r c) = Spec.out (fun h => Spec.pre1 x0 x1 (val_main_v14 (F := Ideal) x0 x2 x3 x4) x5 r h) (fun l => x0 (ix2 r l)) x6 x7 x8 x9 x10 x11 x12 x13 x14 x15 x16 c := by
  rw [val_main_v75_apply, val_main_v72_apply, val_main_v74_apply, val_main_v73_apply]
  have eb : idx_main_v73 (idx_main_v74 (ix2 r c)) = ix1 c := funext fun a => Fin.ext (by match a with | ⟨0, _⟩ => rfl)
  rw [eb]
  unfold Spec.out
  refine congrArg₂ (· + ·) (Finset.sum_congr rfl fun k _ => ?_) rfl
  have el : lidx_main_v72 (ix2 r c) k = ix2 r k := funext fun a => Fin.ext (by match a with | ⟨0, _⟩ => rfl | ⟨1, _⟩ => rfl)
  have er : idx_main_v71 (ridx_main_v72 (ix2 r c) k) = ix2 c k := funext fun a => Fin.ext (by match a with | ⟨0, _⟩ => rfl | ⟨1, _⟩ => rfl)
  rw [val_main_v71_apply, el, er, v70_at]

end Layers

/-- The reference's result at entry (r, c). -/
theorem ref_at (x0 : (⟨S4096x64, .f32⟩ : BufTy).Contents (Elt Ideal)) (x1 : (⟨S4096x4096, .f32⟩ : BufTy).Contents (Elt Ideal))
    (x2 : (⟨S4096x8, .i32⟩ : BufTy).Contents (Elt Ideal)) (x3 : (⟨S64x64, .f32⟩ : BufTy).Contents (Elt Ideal))
    (x4 : (⟨S64, .f32⟩ : BufTy).Contents (Elt Ideal)) (x5 : (⟨S2112x4224, .f32⟩ : BufTy).Contents (Elt Ideal))
    (x6 : (⟨S2112, .f32⟩ : BufTy).Contents (Elt Ideal)) (x7 : (⟨S64x2112, .f32⟩ : BufTy).Contents (Elt Ideal))
    (x8 : (⟨S64, .f32⟩ : BufTy).Contents (Elt Ideal)) (x9 : (⟨S192x64, .f32⟩ : BufTy).Contents (Elt Ideal))
    (x10 : (⟨S192, .f32⟩ : BufTy).Contents (Elt Ideal)) (x11 : (⟨S192x64, .f32⟩ : BufTy).Contents (Elt Ideal))
    (x12 : (⟨S192, .f32⟩ : BufTy).Contents (Elt Ideal)) (x13 : (⟨S64x64, .f32⟩ : BufTy).Contents (Elt Ideal))
    (x14 : (⟨S64, .f32⟩ : BufTy).Contents (Elt Ideal)) (x15 : (⟨S4096x64, .f32⟩ : BufTy).Contents (Elt Ideal))
    (x16 : (⟨S4096, .f32⟩ : BufTy).Contents (Elt Ideal)) (r : Fin 4096) (c : Fin 4096) :
    val_main_v75 (F := Ideal) x0 x1 x2 x3 x4 x5 x6 x7 x8 x9 x10 x11 x12 x13 x14 x15 x16 (ix2 r c)
      = Spec.out (fun h => Spec.pre1 x0 x1 (val_main_v14 (F := Ideal) x0 x2 x3 x4) x5 r h) (fun l => x0 (ix2 r l))
          x6 x7 x8 x9 x10 x11 x12 x13 x14 x15 x16 c := by
  exact v75_at x0 x1 x2 x3 x4 x5 x6 x7 x8 x9 x10 x11 x12 x13 x14 x15 x16 r c

end Cert.RefSpec

end
-- ==== Proof.RwArr.lean ====
/-
  The walk-embedding array the kernel's host operations compute is the reference's: both programs gather the
  walks' memory rows, average them over the walk, apply the embedding's linear layer and add its bias, with the
  same operations in the same order.
-/
import proofs.«161436_j58033598104174_1_alg».proof.Proof.Gen.KernelIdeal.Frame
import proofs.«161436_j58033598104174_1_alg».proof.Proof.Gen.ReferenceIdeal.Read
import proofs.«161436_j58033598104174_1_alg».proof.Proof.KBlocks
import Idealize.ShloMosaic.Lib.StableHlo.Run

set_option maxRecDepth 16384

noncomputable section

namespace Cert.RwArr

open Idealize.ShloMosaic Idealize.ShloMosaic.TcCoe Idealize.SL.Sem

section K
open Cert.KernelIdeal Cert.KernelIdeal.Gen

/-- The walk embedding as the kernel's host operations spell it. -/
def rwK (x0 : FVec Ideal S4096x64 .f32) (x2 : IVec S4096x8 32) (x3 : FVec Ideal S64x64 .f32) (x4 : FVec Ideal S64 .f32) :
    FVec Ideal S4096x64 .f32 :=
  addf (Host.dotGeneral dot_S4096x64_S64x64_S4096x64_1_0_0_1_n_n none
      (Host.divf (Host.reduceAdd (Host.gather gather_S4096x64_S4096x8x1_S4096x8x64_2_0_n_n_0_2_164 x0
          (broadcastInDim S4096x8x1 ![0, 1] bcast_S4096x8_S4096x8x1_0_1
            (select (cmpi .slt x2 (broadcastInDim S4096x8 ![] bcast_S_S4096x8 (constantI S_ 32 0#32)))
              (addi x2 (broadcastInDim S4096x8 ![] bcast_S_S4096x8 (constantI S_ 32 4096#32))) x2)))
        (constant (F := Ideal) S_ .f32 0x00000000#32) reducesTo_S4096x8x64_S4096x64_d1 h_S_)
        (broadcastInDim S4096x64 ![] bcast_S_S4096x64 (constant (F := Ideal) S_ .f32 0x41000000#32)))
      (transpose S64x64 [1, 0] x3 transposes_S64x64_S64x64_1_0))
    (broadcastInDim S4096x64 ![0, 1] bcast_S1x64_S4096x64_0_1 (broadcastInDim S1x64 ![1] bcast_S64_S1x64_1 x4))

variable (m : (ℓ : Loc nD τ sig) → Buf (Elt Ideal) ℓ)

theorem V_rw (c : Dev nD) :
    (V m c main_v14 : S4096x64.Idx → EReal)
      = rwK (m ((c : Thread nD τ).loc main_arg0)) (m ((c : Thread nD τ).loc main_arg2))
          (m ((c : Thread nD τ).loc main_arg3)) (m ((c : Thread nD τ).loc main_arg4)) := by
  dsimp only [Gen.V, Gen.hostOps0]
  after_results_simp
  rfl

/-- The kernel's spelling and the reference's are one term. -/
theorem rwK_eq (x0 : FVec Ideal S4096x64 .f32) (x2 : IVec S4096x8 32) (x3 : FVec Ideal S64x64 .f32) (x4 : FVec Ideal S64 .f32) :
    rwK x0 x2 x3 x4 = Cert.ReferenceIdeal.Read.val_main_v14 (F := Ideal) x0 x2 x3 x4 := by
  unfold rwK Cert.ReferenceIdeal.Read.val_main_v14 Cert.ReferenceIdeal.Read.val_main_v11 Cert.ReferenceIdeal.Read.val_main_v13
    Cert.ReferenceIdeal.Read.val_main_v9 Cert.ReferenceIdeal.Read.val_main_v10 Cert.ReferenceIdeal.Read.val_main_v12
    Cert.ReferenceIdeal.Read.val_main_v7 Cert.ReferenceIdeal.Read.val_main_v8 Cert.ReferenceIdeal.Read.val_main_v6
    Cert.ReferenceIdeal.Read.val_main_cst Cert.ReferenceIdeal.Read.val_main_cst_1 Cert.ReferenceIdeal.Read.val_main_v5
    Cert.ReferenceIdeal.Read.val_main_v4 Cert.ReferenceIdeal.Read.val_main_v1 Cert.ReferenceIdeal.Read.val_main_v3
    Cert.ReferenceIdeal.Read.val_main_v0 Cert.ReferenceIdeal.Read.val_main_v2 Cert.ReferenceIdeal.Read.val_main_c
    Cert.ReferenceIdeal.Read.val_main_c_0
  rfl

/-- The walk-embedding array as the region finds it is the reference's stage of the same arguments. -/
theorem rw_eq (c : Dev nD) :
    Cert.KBlocks.rwArr m c
      = Cert.ReferenceIdeal.Read.val_main_v14 (F := Ideal) (m ((c : Thread nD τ).loc main_arg0))
          (m ((c : Thread nD τ).loc main_arg2)) (m ((c : Thread nD τ).loc main_arg3)) (m ((c : Thread nD τ).loc main_arg4)) :=
  (V_rw m c).trans (rwK_eq _ _ _ _)

end K

end Cert.RwArr

end
-- ==== Proof.lean ====
/-
  The certificate of a message-passing step on a graph of 4096 nodes: a fused kernel against its plain reference.

  Both programs compute, for every node r, a row of 4096 predicted origin–destination values: the node's memory
  row, its row of the origin–destination matrix and its random-walk embedding are set side by side and contracted
  with the first weight matrix; a bias and a rectifier, a second linear layer, a gated recurrent update of the
  memory row and two prediction layers follow.  The kernel never forms the 4224-entry row: it splits the first
  weight matrix along its columns into the memory span, the origin–destination span and the walk span, computes
  the three partial contractions separately (the origin–destination one in four runs of 1024 columns, carried in
  an accumulator over the grid's second axis) and adds them; the rest is done on the last run.  Over the extended
  reals a change of float format is the identity and the sum of the partial contractions is the whole contraction
  (addition is commutative and associative there; no cancellation is used, so the inputs' finiteness is not
  needed), so the two programs end with the same array.  The logistic function the kernel applies is, by its
  definition over the extended reals, the quotient 1 / (1 + exp (−x)) the reference spells out.
-/
import proofs.«161436_j58033598104174_1_alg».proof.Defs
import proofs.«161436_j58033598104174_1_alg».proof.Proof.Gen.Kernel
import proofs.«161436_j58033598104174_1_alg».proof.Proof.Gen.Kernel.Skeleton
import proofs.«161436_j58033598104174_1_alg».proof.Proof.Gen.Kernel.Launch
import proofs.«161436_j58033598104174_1_alg».proof.Proof.Gen.Kernel.Points
import proofs.«161436_j58033598104174_1_alg».proof.Proof.Gen.Kernel.Frame
import proofs.«161436_j58033598104174_1_alg».proof.Proof.Gen.KernelIdeal
import proofs.«161436_j58033598104174_1_alg».proof.Proof.Gen.KernelIdeal.Skeleton
import proofs.«161436_j58033598104174_1_alg».proof.Proof.Gen.KernelIdeal.Launch
import proofs.«161436_j58033598104174_1_alg».proof.Proof.Gen.KernelIdeal.Points
import proofs.«161436_j58033598104174_1_alg».proof.Proof.Gen.KernelIdeal.Frame
import proofs.«161436_j58033598104174_1_alg».proof.Proof.Gen.ReferenceIdeal
import proofs.«161436_j58033598104174_1_alg».proof.Proof.Gen.Pre_finite_inputs
import proofs.«161436_j58033598104174_1_alg».proof.Proof.Gen.KernelIdeal.Value
import proofs.«161436_j58033598104174_1_alg».proof.Proof.Gen.ReferenceIdeal.Run
import proofs.«161436_j58033598104174_1_alg».proof.Proof.Gen.ReferenceIdeal.Read
import proofs.«161436_j58033598104174_1_alg».proof.Proof.KFinal
import proofs.«161436_j58033598104174_1_alg».proof.Proof.RefSpec
import proofs.«161436_j58033598104174_1_alg».proof.Proof.RwArr
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's result as one function of the entry. -/
theorem ref_fun (x0 : (⟨Cert.ReferenceIdeal.S4096x64, .f32⟩ : BufTy).Contents (Elt Ideal))
    (x1 : (⟨Cert.ReferenceIdeal.S4096x4096, .f32⟩ : BufTy).Contents (Elt Ideal))
    (x2 : (⟨Cert.ReferenceIdeal.S4096x8, .i32⟩ : BufTy).Contents (Elt Ideal))
    (x3 : (⟨Cert.ReferenceIdeal.S64x64, .f32⟩ : BufTy).Contents (Elt Ideal))
    (x4 : (⟨Cert.ReferenceIdeal.S64, .f32⟩ : BufTy).Contents (Elt Ideal))
    (x5 : (⟨Cert.ReferenceIdeal.S2112x4224, .f32⟩ : BufTy).Contents (Elt Ideal))
    (x6 : (⟨Cert.ReferenceIdeal.S2112, .f32⟩ : BufTy).Contents (Elt Ideal))
    (x7 : (⟨Cert.ReferenceIdeal.S64x2112, .f32⟩ : BufTy).Contents (Elt Ideal))
    (x8 : (⟨Cert.ReferenceIdeal.S64, .f32⟩ : BufTy).Contents (Elt Ideal))
    (x9 : (⟨Cert.ReferenceIdeal.S192x64, .f32⟩ : BufTy).Contents (Elt Ideal))
    (x10 : (⟨Cert.ReferenceIdeal.S192, .f32⟩ : BufTy).Contents (Elt Ideal))
    (x11 : (⟨Cert.ReferenceIdeal.S192x64, .f32⟩ : BufTy).Contents (Elt Ideal))
    (x12 : (⟨Cert.ReferenceIdeal.S192, .f32⟩ : BufTy).Contents (Elt Ideal))
    (x13 : (⟨Cert.ReferenceIdeal.S64x64, .f32⟩ : BufTy).Contents (Elt Ideal))
    (x14 : (⟨Cert.ReferenceIdeal.S64, .f32⟩ : BufTy).Contents (Elt Ideal))
    (x15 : (⟨Cert.ReferenceIdeal.S4096x64, .f32⟩ : BufTy).Contents (Elt Ideal))
    (x16 : (⟨Cert.ReferenceIdeal.S4096, .f32⟩ : BufTy).Contents (Elt Ideal)) :
    Cert.ReferenceIdeal.Read.val_main_v75 (F := Ideal) x0 x1 x2 x3 x4 x5 x6 x7 x8 x9 x10 x11 x12 x13 x14 x15 x16
      = fun idx : Cert.ReferenceIdeal.S4096x4096.Idx =>
          Spec.out (fun h => Spec.pre1 x0 x1 (Cert.ReferenceIdeal.Read.val_main_v14 (F := Ideal) x0 x2 x3 x4) x5 (idx 0) h)
            (fun l => x0 (ix2 (idx 0) l)) x6 x7 x8 x9 x10 x11 x12 x13 x14 x15 x16 (idx 1) := by
  funext idx
  exact (congrArg (Cert.ReferenceIdeal.Read.val_main_v75 (F := Ideal) x0 x1 x2 x3 x4 x5 x6 x7 x8 x9 x10 x11 x12 x13 x14 x15 x16) (eq_ix2 (n0 := 4096) (n1 := 4096) idx)).trans
    (Cert.RefSpec.ref_at x0 x1 x2 x3 x4 x5 x6 x7 x8 x9 x10 x11 x12 x13 x14 x15 x16 (idx 0) (idx 1))

/-- Both idealized programs end with the array that holds, for node r and destination d, the network's output. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KFinal.G m c, ?_, ?_⟩
  · exact (θ_run Cert.KernelIdeal.defs _ _).mono (fun r h c => ⟨(h c).1.trans (Cert.KFinal.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16⟩ := hagree c
    rw [Cert.ReferenceIdeal.Read.val_main_v75_eq, a0, a1, a2, a3, a4, a5, a6, a7, a8, a9, a10, a11, a12, a13, a14, a15, a16]
    rw [ref_fun]
    show _ = Cert.KFinal.G m c
    unfold Cert.KFinal.G
    rw [Cert.RwArr.rw_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
